-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x19200 : Shape := ⟨2, ![8192, 19200]⟩
abbrev S19200x512 : Shape := ⟨2, ![19200, 512]⟩
abbrev S512 : Shape := ⟨1, ![512]⟩
abbrev S512x256 : Shape := ⟨2, ![512, 256]⟩
abbrev S256 : Shape := ⟨1, ![256]⟩
abbrev S25x128x256 : Shape := ⟨3, ![25, 128, 256]⟩
abbrev S25x128 : Shape := ⟨2, ![25, 128]⟩
abbrev S1448x128 : Shape := ⟨2, ![1448, 128]⟩
abbrev S1448 : Shape := ⟨1, ![1448]⟩
abbrev S8192 : Shape := ⟨1, ![8192]⟩
abbrev S_ : Shape := ⟨0, ![]⟩

class Facts : Prop where
  bcast_S_S8192x19200 : S_.BroadcastsInDim S8192x19200 (![] : Fin 0 → Fin S8192x19200.rank)
  reducesTo_S8192x19200_S_d0_1 : S8192x19200.ReducesTo [0, 1] S_
  h_S_ : 0 < S_.numel
  bcast_S_S19200x512 : S_.BroadcastsInDim S19200x512 (![] : Fin 0 → Fin S19200x512.rank)
  reducesTo_S19200x512_S_d0_1 : S19200x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S25x128x256 : S_.BroadcastsInDim S25x128x256 (![] : Fin 0 → Fin S25x128x256.rank)
  reducesTo_S25x128x256_S_d0_1_2 : S25x128x256.ReducesTo [0, 1, 2] S_
  bcast_S_S25x128 : S_.BroadcastsInDim S25x128 (![] : Fin 0 → Fin S25x128.rank)
  reducesTo_S25x128_S_d0_1 : S25x128.ReducesTo [0, 1] S_
  bcast_S_S1448x128 : S_.BroadcastsInDim S1448x128 (![] : Fin 0 → Fin S1448x128.rank)
  reducesTo_S1448x128_S_d0_1 : S1448x128.ReducesTo [0, 1] S_
  bcast_S_S1448 : S_.BroadcastsInDim S1448 (![] : Fin 0 → Fin S1448.rank)
  reducesTo_S1448_S_d0 : S1448.ReducesTo [0] S_

variable [Facts]

def fn_part2 {F : FTy → Type} [FloatOps F] (main_arg7 : FVec F S1448x128 .f32) (main_arg8 : FVec F S1448 .f32) (main_arg10 : IVec S1448 32) (main_v33 : IVec S_ 1) : IVec S_ 1 :=
  let main_v34 : FVec F S1448x128 .f32 := Host.absf main_arg7
  let main_cst_12 : FVec F S_ .f32 := constant S_ .f32 0x7F800000#32
  let main_v35 : FVec F S1448x128 .f32 := broadcastInDim S1448x128 ![] bcast_S_S1448x128 main_cst_12
  let main_v36 : IVec S1448x128 1 := cmpf .olt main_v34 main_v35
  let main_c_13 : IVec S_ 1 := constantI S_ 1 1#1
  let main_v37 : IVec S_ 1 := (fun x v => Host.reduce IntOp.andi x v reducesTo_S1448x128_S_d0_1 h_S_) main_v36 main_c_13
  let main_v38 : IVec S_ 1 := andi main_v33 main_v37
  let main_v39 : FVec F S1448 .f32 := Host.absf main_arg8
  let main_cst_14 : FVec F S_ .f32 := constant S_ .f32 0x7F800000#32
  let main_v40 : FVec F S1448 .f32 := broadcastInDim S1448 ![] bcast_S_S1448 main_cst_14
  let main_v41 : IVec S1448 1 := cmpf .olt main_v39 main_v40
  let main_c_15 : IVec S_ 1 := constantI S_ 1 1#1
  let main_v42 : IVec S_ 1 := (fun x v => Host.reduce IntOp.andi x v reducesTo_S1448_S_d0 h_S_) main_v41 main_c_15
  let main_v43 : IVec S_ 1 := andi main_v38 main_v42
  let main_c_16 : IVec S_ 32 := constantI S_ 32 0#32
  let main_v44 : IVec S1448 32 := broadcastInDim S1448 ![] bcast_S_S1448 main_c_16
  let main_v45 : IVec S1448 1 := cmpi .sge main_arg10 main_v44
  let main_c_17 : IVec S_ 32 := constantI S_ 32 25#32
  let main_v46 : IVec S1448 32 := broadcastInDim S1448 ![] bcast_S_S1448 main_c_17
  let main_v47 : IVec S1448 1 := cmpi .slt main_arg10 main_v46
  let main_v48 : IVec S1448 1 := andi main_v45 main_v47
  let main_c_18 : IVec S_ 1 := constantI S_ 1 1#1
  let main_v49 : IVec S_ 1 := (fun x v => Host.reduce IntOp.andi x v reducesTo_S1448_S_d0 h_S_) main_v48 main_c_18
  let main_v50 : IVec S_ 1 := andi main_v43 main_v49
  main_v50

def fn_part1 {F : FTy → Type} [FloatOps F] (main_arg4 : FVec F S256 .f32) (main_arg5 : FVec F S25x128x256 .f32) (main_arg6 : FVec F S25x128 .f32) (main_arg7 : FVec F S1448x128 .f32) (main_arg8 : FVec F S1448 .f32) (main_arg10 : IVec S1448 32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S25x128x256 .f32 := Host.absf main_arg5
  let main_cst_8 : FVec F S_ .f32 := constant S_ .f32 0x7F800000#32
  let main_v25 : FVec F S25x128x256 .f32 := broadcastInDim S25x128x256 ![] bcast_S_S25x128x256 main_cst_8
  let main_v26 : IVec S25x128x256 1 := cmpf .olt main_v24 main_v25
  let main_c_9 : IVec S_ 1 := constantI S_ 1 1#1
  let main_v27 : IVec S_ 1 := (fun x v => Host.reduce IntOp.andi x v reducesTo_S25x128x256_S_d0_1_2 h_S_) main_v26 main_c_9
  let main_v28 : IVec S_ 1 := andi main_v23 main_v27
  let main_v29 : FVec F S25x128 .f32 := Host.absf main_arg6
  let main_cst_10 : FVec F S_ .f32 := constant S_ .f32 0x7F800000#32
  let main_v30 : FVec F S25x128 .f32 := broadcastInDim S25x128 ![] bcast_S_S25x128 main_cst_10
  let main_v31 : IVec S25x128 1 := cmpf .olt main_v29 main_v30
  let main_c_11 : IVec S_ 1 := constantI S_ 1 1#1
  let main_v32 : IVec S_ 1 := (fun x v => Host.reduce IntOp.andi x v reducesTo_S25x128_S_d0_1 h_S_) main_v31 main_c_11
  let main_v33 : IVec S_ 1 := andi main_v28 main_v32
  fn_part2 (F := F) main_arg7 main_arg8 main_arg10 main_v33

def fn {F : FTy → Type} [FloatOps F] (main_arg0 : FVec F S8192x19200 .f32) (main_arg1 : FVec F S19200x512 .f32) (main_arg2 : FVec F S512 .f32) (main_arg3 : FVec F S512x256 .f32) (main_arg4 : FVec F S256 .f32) (main_arg5 : FVec F S25x128x256 .f32) (main_arg6 : FVec F S25x128 .f32) (main_arg7 : FVec F S1448x128 .f32) (main_arg8 : FVec F S1448 .f32) (main_arg9 : IVec S8192 32) (main_arg10 : IVec S1448 32) : IVec S_ 1 :=
  let main_v0 : FVec F S8192x19200 .f32 := Host.absf main_arg0
  let main_cst : FVec F S_ .f32 := constant S_ .f32 0x7F800000#32
  let main_v1 : FVec F S8192x19200 .f32 := broadcastInDim S8192x19200 ![] bcast_S_S8192x19200 main_cst
  let main_v2 : IVec S8192x19200 1 := cmpf .olt main_v0 main_v1
  let main_c : IVec S_ 1 := constantI S_ 1 1#1
  let main_v3 : IVec S_ 1 := (fun x v => Host.reduce IntOp.andi x v reducesTo_S8192x19200_S_d0_1 h_S_) main_v2 main_c
  let main_v4 : FVec F S19200x512 .f32 := Host.absf main_arg1
  let main_cst_0 : FVec F S_ .f32 := constant S_ .f32 0x7F800000#32
  let main_v5 : FVec F S19200x512 .f32 := broadcastInDim S19200x512 ![] bcast_S_S19200x512 main_cst_0
  let main_v6 : IVec S19200x512 1 := cmpf .olt main_v4 main_v5
  let main_c_1 : IVec S_ 1 := constantI S_ 1 1#1
  let main_v7 : IVec S_ 1 := (fun x v => Host.reduce IntOp.andi x v reducesTo_S19200x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_arg10 main_v13 main_v16
-- ==== Kernel.lean ====
abbrev S8192x19200 : Shape := ⟨2, ![8192, 19200]⟩
abbrev S19200x512 : Shape := ⟨2, ![19200, 512]⟩
abbrev S512 : Shape := ⟨1, ![512]⟩
abbrev S512x256 : Shape := ⟨2, ![512, 256]⟩
abbrev S256 : Shape := ⟨1, ![256]⟩
abbrev S25x128x256 : Shape := ⟨3, ![25, 128, 256]⟩
abbrev S25x128 : Shape := ⟨2, ![25, 128]⟩
abbrev S1448x128 : Shape := ⟨2, ![1448, 128]⟩
abbrev S1448 : Shape := ⟨1, ![1448]⟩
abbrev S8192 : Shape := ⟨1, ![8192]⟩
abbrev S_ : Shape := ⟨0, ![]⟩
abbrev S8192x1 : Shape := ⟨2, ![8192, 1]⟩
abbrev S1x25 : Shape := ⟨2, ![1, 25]⟩
abbrev S8192x25 : Shape := ⟨2, ![8192, 25]⟩
abbrev S8192x128 : Shape := ⟨2, ![8192, 128]⟩
abbrev S3200x256 : Shape := ⟨2, ![3200, 256]⟩
abbrev S256x3200 : Shape := ⟨2, ![256, 3200]⟩
abbrev S1x3200 : Shape := ⟨2, ![1, 3200]⟩
abbrev S1x512 : Shape := ⟨2, ![1, 512]⟩
abbrev S1x256 : Shape := ⟨2, ![1, 256]⟩
abbrev S25x25 : Shape := ⟨2, ![25, 25]⟩
abbrev S25x25x128 : Shape := ⟨3, ![25, 25, 128]⟩
abbrev S25x3200 : Shape := ⟨2, ![25, 3200]⟩
abbrev S128x128 : Shape := ⟨2, ![128, 128]⟩
abbrev S1x128x1x128 : Shape := ⟨4, ![1, 128, 1, 128]⟩
abbrev S25x128x1x128 : Shape := ⟨4, ![25, 128, 1, 128]⟩
abbrev S3200x128 : Shape := ⟨2, ![3200, 128]⟩
abbrev S64x19200 : Shape := ⟨2, ![64, 19200]⟩
abbrev S64x25 : Shape := ⟨2, ![64, 25]⟩
abbrev S64x128 : Shape := ⟨2, ![64, 128]⟩
abbrev S64x1 : Shape := ⟨2, ![64, 1]⟩
abbrev S64x512 : Shape := ⟨2, ![64, 512]⟩
abbrev S64x256 : Shape := ⟨2, ![64, 256]⟩
abbrev S64x3200 : Shape := ⟨2, ![64, 3200]⟩
abbrev S64 : Shape := ⟨1, ![64]⟩

abbrev nBuf : Space → Nat
  | .hbm => 76
  | .vmem => 18
  | .smem => 0
  | _ => 0

abbrev bufTy : (tb : Table) → Fin (tcTables nBuf tb) → BufTy
  | .hbm, ⟨0, _⟩ => ⟨S8192x19200, .f32⟩
  | .hbm, ⟨1, _⟩ => ⟨S19200x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S25x128x256, .f32⟩
  | .hbm, ⟨6, _⟩ => ⟨S25x128, .f32⟩
  | .hbm, ⟨7, _⟩ => ⟨S1448x128, .f32⟩
  | .hbm, ⟨8, _⟩ => ⟨S1448, .f32⟩
  | .hbm, ⟨9, _⟩ => ⟨S8192, .i32⟩
  | .hbm, ⟨10, _⟩ => ⟨S1448, .i32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S8192x1, .i32⟩
  | .hbm, ⟨19, _⟩ => ⟨S8192, .i32⟩
  | .hbm, ⟨20, _⟩ => ⟨S8192x1, .i32⟩
  | .hbm, ⟨21, _⟩ => ⟨S1x25, .i32⟩
  | .hbm, ⟨22, _⟩ => ⟨S8192x25, .i32⟩
  | .hbm, ⟨23, _⟩ => ⟨S8192x25, .i32⟩
  | .hbm, ⟨24, _⟩ => ⟨S8192x25, .i1⟩
  | .hbm, ⟨25, _⟩ => ⟨S8192x25, .f32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S8192x128, .f32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S8192x1, .i32⟩
  | .hbm, ⟨43, _⟩ => ⟨S8192, .f32⟩
  | .hbm, ⟨44, _⟩ => ⟨S8192x1, .f32⟩
  | .hbm, ⟨45, _⟩ => ⟨S19200x512, .bf16⟩
  | .hbm, ⟨46, _⟩ => ⟨S512x256, .bf16⟩
  | .hbm, ⟨47, _⟩ => ⟨S3200x256, .f32⟩
  | .hbm, ⟨48, _⟩ => ⟨S256x3200, .f32⟩
  | .hbm, ⟨49, _⟩ => ⟨S256x3200, .bf16⟩
  | .hbm, ⟨50, _⟩ => ⟨S1x3200, .f32⟩
  | .hbm, ⟨51, _⟩ => ⟨S1x512, .f32⟩
  | .hbm, ⟨52, _⟩ => ⟨S1x256, .f32⟩
  | .hbm, ⟨53, _⟩ => ⟨S25x25, .i32⟩
  | .hbm, ⟨54, _⟩ => ⟨S25x25, .i32⟩
  | .hbm, ⟨55, _⟩ => ⟨S_, .i32⟩
  | .hbm, ⟨56, _⟩ => ⟨S25x25, .i32⟩
  | .hbm, ⟨57, _⟩ => ⟨S25x25, .i32⟩
  | .hbm, ⟨58, _⟩ => ⟨S25x25, .i1⟩
  | .hbm, ⟨59, _⟩ => ⟨S25x25, .f32⟩
  | .hbm, ⟨60, _⟩ => ⟨S25x25x128, .f32⟩
  | .hbm, ⟨61, _⟩ => ⟨S25x3200, .f32⟩
  | .hbm, ⟨62, _⟩ => ⟨S25x3200, .bf16⟩
  | .hbm, ⟨63, _⟩ => ⟨S128x128, .i32⟩
  | .hbm, ⟨64, _⟩ => ⟨S128x128, .i32⟩
  | .hbm, ⟨65, _⟩ => ⟨S_, .i32⟩
  | .hbm, ⟨66, _⟩ => ⟨S128x128, .i32⟩
  | .hbm, ⟨67, _⟩ => ⟨S128x128, .i32⟩
  | .hbm, ⟨68, _⟩ => ⟨S128x128, .i1⟩
  | .hbm, ⟨69, _⟩ => ⟨S128x128, .f32⟩
  | .hbm, ⟨70, _⟩ => ⟨S1x128x1x128, .f32⟩
  | .hbm, ⟨71, _⟩ => ⟨S25x128x1x128, .f32⟩
  | .hbm, ⟨72, _⟩ => ⟨S3200x128, .f32⟩
  | .hbm, ⟨73, _⟩ => ⟨S3200x128, .bf16⟩
  | .hbm, ⟨74, _⟩ => ⟨S8192x1, .f32⟩
  | .hbm, ⟨75, _⟩ => ⟨S8192, .f32⟩
  | .local _ .vmem, ⟨0, _⟩ => ⟨S64x19200, .f32⟩
  | .local _ .vmem, ⟨1, _⟩ => ⟨S64x19200, .f32⟩
  | .local _ .vmem, ⟨2, _⟩ => ⟨S19200x512, .bf16⟩
  | .local _ .vmem, ⟨3, _⟩ => ⟨S512x256, .bf16⟩
  | .local _ .vmem, ⟨4, _⟩ => ⟨S256x3200, .bf16⟩
  | .local _ .vmem, ⟨5, _⟩ => ⟨S25x3200, .bf16⟩
  | .local _ .vmem, ⟨6, _⟩ => ⟨S3200x128, .bf16⟩
  | .local _ .vmem, ⟨7, _⟩ => ⟨S1x512, .f32⟩
  | .local _ .vmem, ⟨8, _⟩ => ⟨S1x256, .f32⟩
  | .local _ .vmem, ⟨9, _⟩ => ⟨S1x3200, .f32⟩
  | .local _ .vmem, ⟨10, _⟩ => ⟨S64x25, .f32⟩
  | .local _ .vmem, ⟨11, _⟩ => ⟨S64x25, .f32⟩
  | .local _ .vmem, ⟨12, _⟩ => ⟨S64x128, .f32⟩
  | .local _ .vmem, ⟨13, _⟩ => ⟨S64x128, .f32⟩
  | .local _ .vmem, ⟨14, _⟩ => ⟨S64x1, .f32⟩
  | .local _ .vmem, ⟨15, _⟩ => ⟨S64x1, .f32⟩
  | .local _ .vmem, ⟨16, _⟩ => ⟨S64x1, .f32⟩
  | .local _ .vmem, ⟨17, _⟩ => ⟨S64x1, .f32⟩
  | _, _ => ⟨S8192x19200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_c_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x19200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S19200x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S25x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3200x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3200 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x25 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x25_0_1 : S8192x1.BroadcastsInDim S8192x25 (![0, 1] : Fin 2 → Fin S8192x25.rank)
  bcast_S1x25_S8192x25_0_1 : S1x25.BroadcastsInDim S8192x25 (![0, 1] : Fin 2 → Fin S8192x25.rank)
  bitsLt_bf16_f32 : FTy.bits .bf16 < FTy.bits .f32
  shapeCasts_S25x128x256_S3200x256 : S25x128x256.ShapeCasts S3200x256
  transposes_S3200x256_S256x3200_1_0 : S3200x256.Transposes [1, 0] S256x3200
  shapeCasts_S25x128_S1x3200 : S25x128.ShapeCasts S1x3200
  shapeCasts_S512_S1x512 : S512.ShapeCasts S1x512
  shapeCasts_S256_S1x256 : S256.ShapeCasts S1x256
  bcast_S_S25x25 : S_.BroadcastsInDim S25x25 (![] : Fin 0 → Fin S25x25.rank)
  bcast_S25x25_S25x25x128_0_1 : S25x25.BroadcastsInDim S25x25x128 (![0, 1] : Fin 2 → Fin S25x25x128.rank)
  shapeCasts_S25x25x128_S25x3200 : S25x25x128.ShapeCasts S25x3200
  bcast_S_S128x128 : S_.BroadcastsInDim S128x128 (![] : Fin 0 → Fin S128x128.rank)
  shapeCasts_S128x128_S1x128x1x128 : S128x128.ShapeCasts S1x128x1x128
  bcast_S1x128x1x128_S25x128x1x128_0_1_2_3 : S1x128x1x128.BroadcastsInDim S25x128x1x128 (![0, 1, 2, 3] : Fin 4 → Fin S25x128x1x128.rank)
  shapeCasts_S25x128x1x128_S3200x128 : S25x128x1x128.ShapeCasts S3200x128
  inb_S64x19200_S64x19200_0_0 : ∀ a, (![0, 0] : Fin 2 → Nat) a + S64x19200.size a ≤ S64x19200.size a
  h_S64x19200 : 0 < S64x19200.numel
  inb_S19200x512_S19200x512_0_0 : ∀ a, (![0, 0] : Fin 2 → Nat) a + S19200x512.size a ≤ S19200x512.size a
  h_S19200x512 : 0 < S19200x512.numel
  shapeCasts_S19200x512_S19200x512 : S19200x512.ShapeCasts S19200x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S256x3200_S256x3200_0_0 : ∀ a, (![0, 0] : Fin 2 → Nat) a + S256x3200.size a ≤ S256x3200.size a
  h_S256x3200 : 0 < S256x3200.numel
  shapeCasts_S256x3200_S256x3200 : S256x3200.ShapeCasts S256x3200
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S64x3200 : S1x3200.Broadcasts S64x3200
  inb_S64x25_S64x25_0_0 : ∀ a, (![0, 0] : Fin 2 → Nat) a + S64x25.size a ≤ S64x25.size a
  h_S64x25 : 0 < S64x25.numel
  shapeCasts_S64x25_S64x25 : S64x25.ShapeCasts S64x25
  inb_S25x3200_S25x3200_0_0 : ∀ a, (![0, 0] : Fin 2 → Nat) a + S25x3200.size a ≤ S25x3200.size a
  h_S25x3200 : 0 < S25x3200.numel
  shapeCasts_S25x3200_S25x3200 : S25x3200.ShapeCasts S25x3200
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  reduces_S64x128_S64 : S64x128.Reduces [1] S64
  shapeCasts_S64_S64x1 : S64.ShapeCasts S64x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S8192x1_S8192 : S8192x1.ShapeCasts S8192
  gather_S1448_S8192x1_S8192_n_0_n_n_0_1_1_wf : GatherDims.WF S1448 S8192x1 S8192 [] [0] [] [0] [] 1 ![1]
  gather_S1448x128_S8192x1_S8192x128_1_0_n_n_0_1_1128_wf : GatherDims.WF S1448x128 S8192x1 S8192x128 [1] [0] [] [0] [] 1 ![1, 128]
  dot_S64x19200_S19200x512_S64x512_1_0_0_1_n_n_wf : DotDims.WF S64x19200 S19200x512 S64x512 [1] [0] [0] [1] [] []
  dot_S64x512_S512x256_S64x256_1_0_0_1_n_n_wf : DotDims.WF S64x512 S512x256 S64x256 [1] [0] [0] [1] [] []
  dot_S64x256_S256x3200_S64x3200_1_0_0_1_n_n_wf : DotDims.WF S64x256 S256x3200 S64x3200 [1] [0] [0] [1] [] []
  dot_S64x25_S25x3200_S64x3200_1_0_0_1_n_n_wf : DotDims.WF S64x25 S25x3200 S64x3200 [1] [0] [0] [1] [] []
  dot_S64x3200_S3200x128_S64x128_1_0_0_1_n_n_wf : DotDims.WF S64x3200 S3200x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x19200.size a ≤ S8192x19200.size a
  hwx0_0 : ∀ i : grid0.Coords, EltTy.bits .f32 = 32 ∨ (Rect.block (s := S8192x19200) S64x19200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S19200x512.size a ≤ S19200x512.size a
  hwx0_1 : ∀ i : grid0.Coords, EltTy.bits .bf16 = 32 ∨ (Rect.block (s := S19200x512) S19200x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x3200.size a ≤ S256x3200.size a
  hwx0_3 : ∀ i : grid0.Coords, EltTy.bits .bf16 = 32 ∨ (Rect.block (s := S256x3200) S256x3200.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S25x3200.size a ≤ S25x3200.size a
  hwx0_4 : ∀ i : grid0.Coords, EltTy.bits .bf16 = 32 ∨ (Rect.block (s := S25x3200) S25x3200.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3200x128.size a ≤ S3200x128.size a
  hwx0_5 : ∀ i : grid0.Coords, EltTy.bits .bf16 = 32 ∨ (Rect.block (s := S3200x128) S3200x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x3200.size a ≤ S1x3200.size a
  hwx0_8 : ∀ i : grid0.Coords, EltTy.bits .f32 = 32 ∨ (Rect.block (s := S1x3200) S1x3200.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x25.size a ≤ S8192x25.size a
  hwx0_9 : ∀ i : grid0.Coords, EltTy.bits .f32 = 32 ∨ (Rect.block (s := S8192x25) S64x25.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x128.size a ≤ S8192x128.size a
  hwx0_10 : ∀ i : grid0.Coords, EltTy.bits .f32 = 32 ∨ (Rect.block (s := S8192x128) S64x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S64x1.size a ≤ S8192x1.size a
  hwx0_11 : ∀ i : grid0.Coords, EltTy.bits .f32 = 32 ∨ (Rect.block (s := S8192x1) S64x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S64x1.size a ≤ S8192x1.size a
  hwx0_12 : ∀ i : grid0.Coords, EltTy.bits .f32 = 32 ∨ (Rect.block (s := S8192x1) S64x1.size (cc0_transform_12 i) (hinb0_12 i)).WholeWords (EltTy.packing .f32)

variable [Facts₀]

def gather_S1448_S8192x1_S8192_n_0_n_n_0_1_1 : GatherDims S1448 S8192x1 S8192 where
  offsetDims := []
  collapsedSliceDims := [0]
  operandBatchingDims := []
  startIndicesBatchingDims := []
  startIndexMap := [0]
  indexVectorDim := 1
  sliceSizes := ![1]
  wf := gather_S1448_S8192x1_S8192_n_0_n_n_0_1_1_wf
def gather_S1448x128_S8192x1_S8192x128_1_0_n_n_0_1_1128 : GatherDims S1448x128 S8192x1 S8192x128 where
  offsetDims := [1]
  collapsedSliceDims := [0]
  operandBatchingDims := []
  startIndicesBatchingDims := []
  startIndexMap := [0]
  indexVectorDim := 1
  sliceSizes := ![1, 128]
  wf := gather_S1448x128_S8192x1_S8192x128_1_0_n_n_0_1_1128_wf
def dot_S64x19200_S19200x512_S64x512_1_0_0_1_n_n : DotDims S64x19200 S19200x512 S64x512 where
  lhsContracting := [1]
  rhsContracting := [0]
  lhsNonContracting := [0]
  rhsNonContracting := [1]
  lhsBatch := []
  rhsBatch := []
  wf := dot_S64x19200_S19200x512_S64x512_1_0_0_1_n_n_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S64x256_S256x3200_S64x3200_1_0_0_1_n_n : DotDims S64x256 S256x3200 S64x3200 where
  lhsContracting := [1]
  rhsContracting := [0]
  lhsNonContracting := [0]
  rhsNonContracting := [1]
  lhsBatch := []
  rhsBatch := []
  wf := dot_S64x256_S256x3200_S64x3200_1_0_0_1_n_n_wf
def dot_S64x25_S25x3200_S64x3200_1_0_0_1_n_n : DotDims S64x25 S25x3200 S64x3200 where
  lhsContracting := [1]
  rhsContracting := [0]
  lhsNonContracting := [0]
  rhsNonContracting := [1]
  lhsBatch := []
  rhsBatch := []
  wf := dot_S64x25_S25x3200_S64x3200_1_0_0_1_n_n_wf
def dot_S64x3200_S3200x128_S64x128_1_0_0_1_n_n : DotDims S64x3200 S3200x128 S64x128 where
  lhsContracting := [1]
  rhsContracting := [0]
  lhsNonContracting := [0]
  rhsNonContracting := [1]
  lhsBatch := []
  rhsBatch := []
  wf := dot_S64x3200_S3200x128_S64x128_1_0_0_1_n_n_wf

abbrev win0_0 : Pipeline.Window sig grid0 :=
  Pipeline.Window.ofSpec (Memref.whole main_arg0) S64x19200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S19200x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S256x3200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S25x3200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v49) S3200x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S1x3200.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S64x25.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v14) S64x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v22) S64x1.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v50) S64x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x19200 : Shape := ⟨2, ![8192, 19200]⟩
abbrev S19200x512 : Shape := ⟨2, ![19200, 512]⟩
abbrev S512 : Shape := ⟨1, ![512]⟩
abbrev S512x256 : Shape := ⟨2, ![512, 256]⟩
abbrev S256 : Shape := ⟨1, ![256]⟩
abbrev S25x128x256 : Shape := ⟨3, ![25, 128, 256]⟩
abbrev S25x128 : Shape := ⟨2, ![25, 128]⟩
abbrev S1448x128 : Shape := ⟨2, ![1448, 128]⟩
abbrev S1448 : Shape := ⟨1, ![1448]⟩
abbrev S8192 : Shape := ⟨1, ![8192]⟩
abbrev S8192x512 : Shape := ⟨2, ![8192, 512]⟩
abbrev S1x512 : Shape := ⟨2, ![1, 512]⟩
abbrev S_ : Shape := ⟨0, ![]⟩
abbrev S8192x256 : Shape := ⟨2, ![8192, 256]⟩
abbrev S1x256 : Shape := ⟨2, ![1, 256]⟩
abbrev S8192x25x128 : Shape := ⟨3, ![8192, 25, 128]⟩
abbrev S1x25x128 : Shape := ⟨3, ![1, 25, 128]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩
abbrev S8192x1x128 : Shape := ⟨3, ![8192, 1, 128]⟩
abbrev S8192x128 : Shape := ⟨2, ![8192, 128]⟩

abbrev nBuf : Space → Nat
  | .hbm => 87
  | .vmem => 0
  | .smem => 0
  | _ => 0

abbrev bufTy : (tb : Table) → Fin (tcTables nBuf tb) → BufTy
  | .hbm, ⟨0, _⟩ => ⟨S8192x19200, .f32⟩
  | .hbm, ⟨1, _⟩ => ⟨S19200x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S25x128x256, .f32⟩
  | .hbm, ⟨6, _⟩ => ⟨S25x128, .f32⟩
  | .hbm, ⟨7, _⟩ => ⟨S1448x128, .f32⟩
  | .hbm, ⟨8, _⟩ => ⟨S1448, .f32⟩
  | .hbm, ⟨9, _⟩ => ⟨S8192, .i32⟩
  | .hbm, ⟨10, _⟩ => ⟨S1448, .i32⟩
  | .hbm, ⟨11, _⟩ => ⟨S8192x512, .f32⟩
  | .hbm, ⟨12, _⟩ => ⟨S1x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x256, .f32⟩
  | .hbm, ⟨19, _⟩ => ⟨S1x256, .f32⟩
  | .hbm, ⟨20, _⟩ => ⟨S8192x256, .f32⟩
  | .hbm, ⟨21, _⟩ => ⟨S8192x256, .f32⟩
  | .hbm, ⟨22, _⟩ => ⟨S_, .f32⟩
  | .hbm, ⟨23, _⟩ => ⟨S8192x256, .f32⟩
  | .hbm, ⟨24, _⟩ => ⟨S8192x256, .f32⟩
  | .hbm, ⟨25, _⟩ => ⟨S8192x25x128, .f32⟩
  | .hbm, ⟨26, _⟩ => ⟨S1x25x128, .f32⟩
  | .hbm, ⟨27, _⟩ => ⟨S8192x25x128, .f32⟩
  | .hbm, ⟨28, _⟩ => ⟨S8192x25x128, .f32⟩
  | .hbm, ⟨29, _⟩ => ⟨S_, .f32⟩
  | .hbm, ⟨30, _⟩ => ⟨S8192x25x128, .f32⟩
  | .hbm, ⟨31, _⟩ => ⟨S8192x25x128, .f32⟩
  | .hbm, ⟨32, _⟩ => ⟨S_, .i32⟩
  | .hbm, ⟨33, _⟩ => ⟨S8192, .i32⟩
  | .hbm, ⟨34, _⟩ => ⟨S8192, .i1⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S8192, .i32⟩
  | .hbm, ⟨39, _⟩ => ⟨S8192x1, .i32⟩
  | .hbm, ⟨40, _⟩ => ⟨S8192, .i32⟩
  | .hbm, ⟨41, _⟩ => ⟨S8192x1x1, .i32⟩
  | .hbm, ⟨42, _⟩ => ⟨S_, .i32⟩
  | .hbm, ⟨43, _⟩ => ⟨S8192x1x1, .i32⟩
  | .hbm, ⟨44, _⟩ => ⟨S8192x1x1, .i1⟩
  | .hbm, ⟨45, _⟩ => ⟨S_, .i32⟩
  | .hbm, ⟨46, _⟩ => ⟨S8192x1x1, .i32⟩
  | .hbm, ⟨47, _⟩ => ⟨S8192x1x1, .i32⟩
  | .hbm, ⟨48, _⟩ => ⟨S8192x1x1, .i32⟩
  | .hbm, ⟨49, _⟩ => ⟨S1, .i32⟩
  | .hbm, ⟨50, _⟩ => ⟨S_, .i32⟩
  | .hbm, ⟨51, _⟩ => ⟨S8192x1x1, .i32⟩
  | .hbm, ⟨52, _⟩ => ⟨S8192x1x1, .i1⟩
  | .hbm, ⟨53, _⟩ => ⟨S1x1x1, .i32⟩
  | .hbm, ⟨54, _⟩ => ⟨S8192x1x1, .i32⟩
  | .hbm, ⟨55, _⟩ => ⟨S8192x1x1, .i1⟩
  | .hbm, ⟨56, _⟩ => ⟨S8192x1x1, .i1⟩
  | .hbm, ⟨57, _⟩ => ⟨S_, .i1⟩
  | .hbm, ⟨58, _⟩ => ⟨S8192x1, .i1⟩
  | .hbm, ⟨59, _⟩ => ⟨S8192x1x128, .f32⟩
  | .hbm, ⟨60, _⟩ => ⟨S8192x1x128, .i1⟩
  | .hbm, ⟨61, _⟩ => ⟨S_, .f32⟩
  | .hbm, ⟨62, _⟩ => ⟨S8192x1x128, .f32⟩
  | .hbm, ⟨63, _⟩ => ⟨S8192x1x128, .f32⟩
  | .hbm, ⟨64, _⟩ => ⟨S8192x128, .f32⟩
  | .hbm, ⟨65, _⟩ => ⟨S_, .i32⟩
  | .hbm, ⟨66, _⟩ => ⟨S8192, .i32⟩
  | .hbm, ⟨67, _⟩ => ⟨S8192, .i1⟩
  | .hbm, ⟨68, _⟩ => ⟨S_, .i32⟩
  | .hbm, ⟨69, _⟩ => ⟨S8192, .i32⟩
  | .hbm, ⟨70, _⟩ => ⟨S8192, .i32⟩
  | .hbm, ⟨71, _⟩ => ⟨S8192, .i32⟩
  | .hbm, ⟨72, _⟩ => ⟨S8192x1, .i32⟩
  | .hbm, ⟨73, _⟩ => ⟨S8192x128, .f32⟩
  | .hbm, ⟨74, _⟩ => ⟨S8192x128, .f32⟩
  | .hbm, ⟨75, _⟩ => ⟨S_, .f32⟩
  | .hbm, ⟨76, _⟩ => ⟨S8192, .f32⟩
  | .hbm, ⟨77, _⟩ => ⟨S_, .i32⟩
  | .hbm, ⟨78, _⟩ => ⟨S8192, .i32⟩
  | .hbm, ⟨79, _⟩ => ⟨S8192, .i1⟩
  | .hbm, ⟨80, _⟩ => ⟨S_, .i32⟩
  | .hbm, ⟨81, _⟩ => ⟨S8192, .i32⟩
  | .hbm, ⟨82, _⟩ => ⟨S8192, .i32⟩
  | .hbm, ⟨83, _⟩ => ⟨S8192, .i32⟩
  | .hbm, ⟨84, _⟩ => ⟨S8192x1, .i32⟩
  | .hbm, ⟨85, _⟩ => ⟨S8192, .f32⟩
  | .hbm, ⟨86, _⟩ => ⟨S8192, .f32⟩
  | _, _ => ⟨S8192x19200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_cst : Ref sig .tc := ⟨.hbm, 22, rfl⟩
abbrev main_call1_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call2_cst : Ref sig .tc := ⟨.hbm, 29, rfl⟩
abbrev main_call2_v0 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call3_c : Ref sig .tc := ⟨.hbm, 42, rfl⟩
abbrev main_call3_v0 : Ref sig .tc := ⟨.hbm, 43, rfl⟩
abbrev main_call3_v1 : Ref sig .tc := ⟨.hbm, 44, rfl⟩
abbrev main_call3_c_0 : Ref sig .tc := ⟨.hbm, 45, rfl⟩
abbrev main_call3_v2 : Ref sig .tc := ⟨.hbm, 46, rfl⟩
abbrev main_call3_v3 : Ref sig .tc := ⟨.hbm, 47, rfl⟩
abbrev main_call3_v4 : Ref sig .tc := ⟨.hbm, 48, rfl⟩
abbrev main_call3_c_1 : Ref sig .tc := ⟨.hbm, 49, rfl⟩
abbrev main_call3_c_2 : Ref sig .tc := ⟨.hbm, 50, rfl⟩
abbrev main_call3_v5 : Ref sig .tc := ⟨.hbm, 51, rfl⟩
abbrev main_call3_v6 : Ref sig .tc := ⟨.hbm, 52, rfl⟩
abbrev main_call3_v7 : Ref sig .tc := ⟨.hbm, 53, rfl⟩
abbrev main_call3_v8 : Ref sig .tc := ⟨.hbm, 54, rfl⟩
abbrev main_call3_v9 : Ref sig .tc := ⟨.hbm, 55, rfl⟩
abbrev main_call3_v10 : Ref sig .tc := ⟨.hbm, 56, rfl⟩
abbrev main_call3_c_3 : Ref sig .tc := ⟨.hbm, 57, rfl⟩
abbrev main_call3_v11 : Ref sig .tc := ⟨.hbm, 58, rfl⟩
abbrev main_call3_v12 : Ref sig .tc := ⟨.hbm, 59, rfl⟩
abbrev main_call3_v13 : Ref sig .tc := ⟨.hbm, 60, rfl⟩
abbrev main_call3_cst : Ref sig .tc := ⟨.hbm, 61, rfl⟩
abbrev main_call3_v14 : Ref sig .tc := ⟨.hbm, 62, rfl⟩
abbrev main_v23 : Ref sig .tc := ⟨.hbm, 63, rfl⟩
abbrev main_v24 : Ref sig .tc := ⟨.hbm, 64, rfl⟩
abbrev main_c_1 : Ref sig .tc := ⟨.hbm, 65, rfl⟩
abbrev main_v25 : Ref sig .tc := ⟨.hbm, 66, rfl⟩
abbrev main_v26 : Ref sig .tc := ⟨.hbm, 67, rfl⟩
abbrev main_c_2 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_cst : Ref sig .tc := ⟨.hbm, 75, rfl⟩
abbrev main_v33 : Ref sig .tc := ⟨.hbm, 76, rfl⟩
abbrev main_c_3 : Ref sig .tc := ⟨.hbm, 77, rfl⟩
abbrev main_v34 : Ref sig .tc := ⟨.hbm, 78, rfl⟩
abbrev main_v35 : Ref sig .tc := ⟨.hbm, 79, rfl⟩
abbrev main_c_4 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S25x128_S1x25x128_1_2 : S25x128.BroadcastsInDim S1x25x128 (![1, 2] : Fin 2 → Fin S1x25x128.rank)
  bcast_S1x25x128_S8192x25x128_0_1_2 : S1x25x128.BroadcastsInDim S8192x25x128 (![0, 1, 2] : Fin 3 → Fin S8192x25x128.rank)
  bcast_S_S8192x25x128 : S_.BroadcastsInDim S8192x25x128 (![] : Fin 0 → Fin S8192x25x128.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192_S8192x1x1_0 : S8192.BroadcastsInDim S8192x1x1 (![0] : Fin 1 → Fin S8192x1x1.rank)
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  h_S_ : 0 < S_.numel
  bcast_S8192x1_S8192x1x128_0_1 : S8192x1.BroadcastsInDim S8192x1x128 (![0, 1] : Fin 2 → Fin S8192x1x128.rank)
  bcast_S_S8192x1x128 : S_.BroadcastsInDim S8192x1x128 (![] : Fin 0 → Fin S8192x1x128.rank)
  shapeCasts_S8192x1x128_S8192x128 : S8192x1x128.ShapeCasts S8192x128
  reducesTo_S8192x128_S8192_d1 : S8192x128.ReducesTo [1] S8192
  dot_S8192x19200_S19200x512_S8192x512_1_0_0_1_n_n_wf : DotDims.WF S8192x19200 S19200x512 S8192x512 [1] [0] [0] [1] [] []
  dot_S8192x512_S512x256_S8192x256_1_0_0_1_n_n_wf : DotDims.WF S8192x512 S512x256 S8192x256 [1] [0] [0] [1] [] []
  dot_S8192x256_S25x128x256_S8192x25x128_1_2_0_01_n_n_wf : DotDims.WF S8192x256 S25x128x256 S8192x25x128 [1] [2] [0] [0, 1] [] []
  gather_S1448_S8192x1_S8192_n_0_n_n_0_1_1_wf : GatherDims.WF S1448 S8192x1 S8192 [] [0] [] [0] [] 1 ![1]
  gather_S8192x25x128_S8192x1x1_S8192x1x128_2_1_0_0_1_2_11128_wf : GatherDims.WF S8192x25x128 S8192x1x1 S8192x1x128 [2] [1] [0] [1] [0] 2 ![1, 1, 128]
  gather_S1448x128_S8192x1_S8192x128_1_0_n_n_0_1_1128_wf : GatherDims.WF S1448x128 S8192x1 S8192x128 [1] [0] [] [0] [] 1 ![1, 128]

variable [Facts₀]

def dot_S8192x19200_S19200x512_S8192x512_1_0_0_1_n_n : DotDims S8192x19200 S19200x512 S8192x512 where
  lhsContracting := [1]
  rhsContracting := [0]
  lhsNonContracting := [0]
  rhsNonContracting := [1]
  lhsBatch := []
  rhsBatch := []
  wf := dot_S8192x19200_S19200x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S25x128x256_S8192x25x128_1_2_0_01_n_n : DotDims S8192x256 S25x128x256 S8192x25x128 where
  lhsContracting := [1]
  rhsContracting := [2]
  lhsNonContracting := [0]
  rhsNonContracting := [0, 1]
  lhsBatch := []
  rhsBatch := []
  wf := dot_S8192x256_S25x128x256_S8192x25x128_1_2_0_01_n_n_wf
def gather_S1448_S8192x1_S8192_n_0_n_n_0_1_1 : GatherDims S1448 S8192x1 S8192 where
  offsetDims := []
  collapsedSliceDims := [0]
  operandBatchingDims := []
  startIndicesBatchingDims := []
  startIndexMap := [0]
  indexVectorDim := 1
  sliceSizes := ![1]
  wf := gather_S1448_S8192x1_S8192_n_0_n_n_0_1_1_wf
def gather_S8192x25x128_S8192x1x1_S8192x1x128_2_1_0_0_1_2_11128 : GatherDims S8192x25x128 S8192x1x1 S8192x1x128 where
  offsetDims := [2]
  collapsedSliceDims := [1]
  operandBatchingDims := [0]
  startIndicesBatchingDims := [0]
  startIndexMap := [1]
  indexVectorDim := 2
  sliceSizes := ![1, 1, 128]
  wf := gather_S8192x25x128_S8192x1x1_S8192x1x128_2_1_0_0_1_2_11128_wf
def gather_S1448x128_S8192x1_S8192x128_1_0_n_n_0_1_1128 : GatherDims S1448x128 S8192x1 S8192x128 where
  offsetDims := [1]
  collapsedSliceDims := [0]
  operandBatchingDims := []
  startIndicesBatchingDims := []
  startIndexMap := [0]
  indexVectorDim := 1
  sliceSizes := ![1, 128]
  wf := gather_S1448x128_S8192x1_S8192x128_1_0_n_n_0_1_1128_wf

class Facts : Prop extends Facts₀ where

variable [Facts]
-- ==== Proof.Spec.lean ====
/-
  The specification, free of any program: what one sample's output is, as a function of the argument arrays.

  For sample `b`: two dense layers with a bias and a clamp at zero,
      hid1 b i = max (∑ₐ x[b,a]·W1[a,i] + b1[i]) 0,      hid2 b d = max (∑ᵢ hid1 b i·W2[i,d] + b2[d]) 0,
  then 25 pathway heads of 128 features each,
      path b p k = max (∑_d hid2 b d·Wp[p,k,d] + bp[p,k]) 0,
  of which the sample's own pathway `sel b` is kept and dotted with the sample's drug row, plus the drug's bias:
      out b = ∑ₖ path b (sel b) k · wg[b,k] + bdg[b].
  `out` is that, in the arrangement the reference computes it. `kout` is the arrangement the kernel computes it
  in: the 25 heads flattened to 3200 columns (column j is head j / 128, feature j % 128), the selection done by two
  products with 0/1 matrices — a one-hot row `oh[b,·]` expanded to 3200 columns by `S` (S[p,j] = 1 iff j / 128 = p),
  and the 3200 columns collapsed to 128 by `R` (R[j,k] = 1 iff j % 128 = k). `kout_eq_out` is the law that joins
  them: a sum all of whose terms but one vanish is that term, and `0 · y = 0`, `1 · y = y` hold for every extended
  real `y`, so no finiteness is used.
-/
import Idealize.ShloMosaic.PureOps.Ideal
import Idealize.ShloMosaic.Lib.ValueIdx

noncomputable section

open scoped BigOperators

namespace Cert.Spec

open Idealize.ShloMosaic Idealize.ShloMosaic.ValueIdx

/-- Arrays of extended reals over literal shapes. -/
abbrev T1 (a : ℕ) := (⟨1, ![a]⟩ : Shape).Idx → EReal
abbrev T2 (a b : ℕ) := (⟨2, ![a, b]⟩ : Shape).Idx → EReal
abbrev T3 (a b c : ℕ) := (⟨3, ![a, b, c]⟩ : Shape).Idx → EReal

/-! ## The reference's arrangement -/

/-- First dense layer, clamped at zero. -/
def hid1 (x : T2 8192 19200) (W1 : T2 19200 512) (b1 : T1 512) (b : Fin 8192) (i : Fin 512) : EReal :=
  max ((∑ a : Fin 19200, x (ix2 b a) * W1 (ix2 a i)) + b1 (ix1 i)) 0

/-- Second dense layer, clamped at zero. -/
def hid2 (x : T2 8192 19200) (W1 : T2 19200 512) (b1 : T1 512) (W2 : T2 512 256) (b2 : T1 256) (b : Fin 8192) (d : Fin 256) : EReal :=
  max ((∑ i : Fin 512, hid1 x W1 b1 b i * W2 (ix2 i d)) + b2 (ix1 d)) 0

/-- Feature `k` of pathway head `p`, clamped at zero. -/
def path (x : T2 8192 19200) (W1 : T2 19200 512) (b1 : T1 512) (W2 : T2 512 256) (b2 : T1 256) (Wp : T3 25 128 256) (bp : T2 25 128)
    (b : Fin 8192) (p : Fin 25) (k : Fin 128) : EReal :=
  max ((∑ d : Fin 256, hid2 x W1 b1 W2 b2 b d * Wp (ix3 p k d)) + bp (ix2 p k)) 0

/-- The output: the sample's own pathway head dotted with its drug row `wg[b,·]`, plus its drug bias `bdg[b]`. -/
def out (x : T2 8192 19200) (W1 : T2 19200 512) (b1 : T1 512) (W2 : T2 512 256) (b2 : T1 256) (Wp : T3 25 128 256) (bp : T2 25 128)
    (sel : Fin 8192 → Fin 25) (wg : T2 8192 128) (bdg : T1 8192) : T1 8192 :=
  fun i => (∑ k : Fin 128, path x W1 b1 W2 b2 Wp bp (i 0) (sel (i 0)) k * wg (ix2 (i 0) k)) + bdg i

/-- The pathway of sample `b` from a table of 32-bit words known to lie below 25 (the remainder only makes the
    function total). -/
def selOf (pi : (⟨1, ![8192]⟩ : Shape).Idx → BitVec 32) (b : Fin 8192) : Fin 25 :=
  ⟨(pi (ix1 b)).toNat % 25, Nat.mod_lt _ (by norm_num)⟩

/-! ## The kernel's arrangement -/

/-- First dense layer over a bias kept as a one-row matrix. -/
def khid1 (x : T2 8192 19200) (W1 : T2 19200 512) (b1r : T2 1 512) (b : Fin 8192) (i : Fin 512) : EReal :=
  max ((∑ a : Fin 19200, x (ix2 b a) * W1 (ix2 a i)) + b1r (ix2 0 i)) 0

/-- Second dense layer over a bias kept as a one-row matrix. -/
def khid2 (x : T2 8192 19200) (W1 : T2 19200 512) (b1r : T2 1 512) (W2 : T2 512 256) (b2r : T2 1 256) (b : Fin 8192) (d : Fin 256) : EReal :=
  max ((∑ i : Fin 512, khid1 x W1 b1r b i * W2 (ix2 i d)) + b2r (ix2 0 d)) 0

/-- All 25 heads at once, flattened to 3200 columns. -/
def kpath (x : T2 8192 19200) (W1 : T2 19200 512) (b1r : T2 1 512) (W2 : T2 512 256) (b2r : T2 1 256) (WpT : T2 256 3200) (bpr : T2 1 3200)
    (b : Fin 8192) (j : Fin 3200) : EReal :=
  max ((∑ d : Fin 256, khid2 x W1 b1r W2 b2r b d * WpT (ix2 d j)) + bpr (ix2 0 j)) 0

/-- The output as a one-column matrix: the flattened heads weighted by the expanded one-hot row, collapsed to 128
    features, dotted with the drug row, plus the drug bias kept as a column. -/
def kout (x : T2 8192 19200) (W1 : T2 19200 512) (b1r : T2 1 512) (W2 : T2 512 256) (b2r : T2 1 256) (WpT : T2 256 3200) (bpr : T2 1 3200)
    (oh : T2 8192 25) (S : T2 25 3200) (R : T2 3200 128) (wg : T2 8192 128) (bd2 : T2 8192 1) : T2 8192 1 :=
  fun i => (∑ k : Fin 128, (∑ j : Fin 3200, (kpath x W1 b1r W2 b2r WpT bpr (i 0) j * (∑ p : Fin 25, oh (ix2 (i 0) p) * S (ix2 p j))) * R (ix2 j k))
      * wg (ix2 (i 0) k)) + bd2 i

/-! ## The law that joins them -/

/-- Column `p·128 + k` of the flattened heads. -/
def col (p : Fin 25) (k : Fin 128) : Fin 3200 := ⟨p.val * 128 + k.val, by have := p.isLt; have := k.isLt; omega⟩

/-- Selecting by a one-hot row expanded through `S` and collapsing through `R` picks one column: for any row `a` of
    3200 extended reals, `∑ⱼ (a j · ∑ₚ oh p · S p j) · R j k = a (p₀·128 + k)`. -/
theorem select_collapse (a : Fin 3200 → EReal) (p0 : Fin 25) (k : Fin 128)
    (oh : Fin 25 → EReal) (hoh : ∀ p, oh p = if p = p0 then 1 else 0)
    (S : Fin 25 → Fin 3200 → EReal) (hS : ∀ p j, S p j = if j.val / 128 = p.val then 1 else 0)
    (R : Fin 3200 → Fin 128 → EReal) (hR : ∀ j k', R j k' = if j.val % 128 = k'.val then 1 else 0) :
    (∑ j : Fin 3200, (a j * (∑ p : Fin 25, oh p * S p j)) * R j k) = a (col p0 k) := by
  have hexp : ∀ j : Fin 3200, (∑ p : Fin 25, oh p * S p j) = if j.val / 128 = p0.val then 1 else 0 := by
    intro j
    rw [Finset.sum_eq_single p0]
    · rw [hoh p0, if_pos rfl, one_mul, hS]
    · intro p _ hp
      rw [hoh p, if_neg hp, zero_mul]
    · intro h; exact absurd (Finset.mem_univ _) h
  rw [Finset.sum_eq_single (col p0 k)]
  · have h1 : (col p0 k).val / 128 = p0.val := by
      show (p0.val * 128 + k.val) / 128 = p0.val
      have := k.isLt; omega
    have h2 : (col p0 k).val % 128 = k.val := by
      show (p0.val * 128 + k.val) % 128 = k.val
      have := k.isLt; omega
    rw [hexp, if_pos h1, hR, if_pos h2, mul_one, mul_one]
  · intro j _ hj
    rw [hexp, hR]
    by_cases h1 : j.val / 128 = p0.val
    · have h2 : ¬ j.val % 128 = k.val := by
        intro h2
        apply hj
        apply Fin.ext
        show j.val = p0.val * 128 + k.val
        have := Nat.div_add_mod j.val 128
        omega
      rw [if_neg h2, mul_zero]
    · rw [if_neg h1, mul_zero, zero_mul]
  · intro h; exact absurd (Finset.mem_univ _) h

end Cert.Spec

end
-- ==== Proof.Pre.lean ====
/-
  What the precondition says of the pathway table: the precondition is a conjunction, read as a one-bit word, whose
  last conjunct is "every entry e of the table satisfies 0 ≤ e and e < 25" (both comparisons signed). A conjunction
  that is 1 has every conjunct 1; an "all" that is 1 has every element 1; and a 32-bit word whose signed value lies
  in [0, 25) has that same unsigned value.
-/
import proofs.«414887_j69758858821908_1_alg».proof.Pre_finite_inputs
import Idealize.ShloMosaic.Lib.ReduceAll
import Idealize.ShloMosaic.Lib.ValueIdx

noncomputable section

namespace Cert.Pre_finite_inputs.Decode

open Idealize.ShloMosaic Idealize.ShloMosaic.ValueIdx Cert.Pre_finite_inputs

variable {F : FTy → Type} [FloatOps F] [Cert.Pre_finite_inputs.Facts]

/-- The scalar shape has one index. -/
instance : Subsingleton S_.Idx := ⟨fun a b => funext fun d => d.elim0⟩

/-- A 32-bit word whose signed value lies in [0, 25) is, unsigned, below 25. -/
theorem toNat_lt_of_toInt (w : BitVec 32) (h0 : (0#32).toInt ≤ w.toInt) (h1 : w.toInt < (25#32).toInt) : w.toNat < 25 := by
  have e0 : (0#32).toInt = 0 := by decide
  have e1 : (25#32).toInt = 25 := by decide
  rw [e0] at h0; rw [e1] at h1
  have hw := w.isLt
  rw [BitVec.toInt_eq_toNat_cond] at h0 h1
  split at h0 <;> omega

/-- Under the precondition every entry of the pathway table is below 25. -/
theorem drug_pw_lt (a0 : FVec F S8192x19200 .f32) (a1 : FVec F S19200x512 .f32) (a2 : FVec F S512 .f32) (a3 : FVec F S512x256 .f32) (a4 : FVec F S256 .f32)
    (a5 : FVec F S25x128x256 .f32) (a6 : FVec F S25x128 .f32) (a7 : FVec F S1448x128 .f32) (a8 : FVec F S1448 .f32) (a9 : IVec S8192 32) (a10 : IVec S1448 32)
    (h : fn (F := F) a0 a1 a2 a3 a4 a5 a6 a7 a8 a9 a10 = fun _ => 1#1) (j : S1448.Idx) : (a10 j).toNat < 25 := by
  have h0 := congrFun h ix0
  dsimp only [fn, fn_part1, fn_part2] at h0
  -- the last conjunct of the conjunction, then every element of the "all", then its two comparisons
  have h1 := (IntOp.andi_eq_one.mp h0).2
  have h2 := Host.reduce_andi_all _ _ _ _ ix0 h1 j
  have h3 := IntOp.andi_eq_one.mp h2
  exact toNat_lt_of_toInt (a10 j) (IntOp.cmpi_sge.mp h3.1) (IntOp.cmpi_slt.mp h3.2)

end Cert.Pre_finite_inputs.Decode

end
-- ==== Proof.RefValue.lean ====
/-
  The reference's result, operation by operation, is the specification's `out`: three dense layers with a clamp at
  zero, the sample's pathway head taken along the pathway axis, the dot with the sample's drug row, the drug bias.
  The pathway index is a table entry known to lie in [0, 25): it is not negative, so the wrap-around leaves it alone,
  it is within bounds, so the look-up's own range test passes and the out-of-range fill is never taken, and the
  look-up reads head number `index`.
-/
import proofs.«414887_j69758858821908_1_alg».proof.Proof.RefReadPatched
import proofs.«414887_j69758858821908_1_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.StableHlo Idealize.ShloMosaic.ValueIdx
open Cert.Spec (T1 T2 T3)

/-- First dense layer: the reference's clamped sum at row `b`, column `i`. -/
theorem v4_eq (x0 : T2 8192 19200) (x1 : T2 19200 512) (x2 : T1 512) (b : Fin 8192) (i : Fin 512) :
    val_main_v4 (F := Ideal) x0 x1 x2 (ix2 b i) = Cert.Spec.hid1 x0 x1 x2 b i := by
  have hl : ∀ k : Fin 19200, lidx_main_v0 (ix2 b i) k = ix2 b k := fun k =>
    funext fun a => Fin.ext (by match a with | ⟨0, _⟩ => rfl | ⟨1, _⟩ => rfl)
  have hr : ∀ k : Fin 19200, ridx_main_v0 (ix2 b i) k = ix2 k i := fun k =>
    funext fun a => Fin.ext (by match a with | ⟨0, _⟩ => rfl | ⟨1, _⟩ => rfl)
  have hb : idx_main_v1 (idx_main_v2 (ix2 b i)) = ix1 i :=
    funext fun a => Fin.ext (by match a with | ⟨0, _⟩ => rfl)
  rw [val_main_v4_apply, val_main_v3_apply, val_main_v0_apply, val_main_v2_apply, val_main_v1_apply,
    val_main_call0_v0_apply, val_main_call0_cst_apply]
  simp only [Ideal.maximumf_def, Ideal.addf_def, Ideal.ofBits_def, Ideal.ofBits_zero_f32, hl, hr, hb]
  rfl

/-- Second dense layer. -/
theorem v9_eq (x0 : T2 8192 19200) (x1 : T2 19200 512) (x2 : T1 512) (x3 : T2 512 256) (x4 : T1 256) (b : Fin 8192) (d : Fin 256) :
    val_main_v9 (F := Ideal) x0 x1 x2 x3 x4 (ix2 b d) = Cert.Spec.hid2 x0 x1 x2 x3 x4 b d := by
  have hl : ∀ k : Fin 512, lidx_main_v5 (ix2 b d) k = ix2 b k := fun k =>
    funext fun a => Fin.ext (by match a with | ⟨0, _⟩ => rfl | ⟨1, _⟩ => rfl)
  have hr : ∀ k : Fin 512, ridx_main_v5 (ix2 b d) k = ix2 k d := fun k =>
    funext fun a => Fin.ext (by match a with | ⟨0, _⟩ => rfl | ⟨1, _⟩ => rfl)
  have hb : idx_main_v6 (idx_main_v7 (ix2 b d)) = ix1 d :=
    funext fun a => Fin.ext (by match a with | ⟨0, _⟩ => rfl)
  rw [val_main_v9_apply, val_main_v8_apply, val_main_v5_apply, val_main_v7_apply, val_main_v6_apply,
    val_main_call1_v0_apply, val_main_call1_cst_apply]
  simp only [Ideal.maximumf_def, Ideal.addf_def, Ideal.ofBits_def, Ideal.ofBits_zero_f32, hl, hr, hb, v4_eq]
  rfl

/-- The 25 pathway heads. -/
theorem v14_eq (x0 : T2 8192 19200) (x1 : T2 19200 512) (x2 : T1 512) (x3 : T2 512 256) (x4 : T1 256) (x5 : T3 25 128 256) (x6 : T2 25 128)
    (b : Fin 8192) (p : Fin 25) (k : Fin 128) :
    val_main_v14 (F := Ideal) x0 x1 x2 x3 x4 x5 x6 (ix3 b p k) = Cert.Spec.path x0 x1 x2 x3 x4 x5 x6 b p k := by
  have hl : ∀ q : Fin 256, lidx_main_v10 (ix3 b p k) q = ix2 b q := fun q =>
    funext fun a => Fin.ext (by match a with | ⟨0, _⟩ => rfl | ⟨1, _⟩ => rfl)
  have hr : ∀ q : Fin 256, ridx_main_v10 (ix3 b p k) q = ix3 p k q := fun q =>
    funext fun a => Fin.ext (by match a with | ⟨0, _⟩ => rfl | ⟨1, _⟩ => rfl | ⟨2, _⟩ => rfl)
  have hb : idx_main_v11 (idx_main_v12 (ix3 b p k)) = ix2 p k :=
    funext fun a => Fin.ext (by match a with | ⟨0, _⟩ => rfl | ⟨1, _⟩ => rfl)
  rw [val_main_v14_apply, val_main_v13_apply, val_main_v10_apply, val_main_v12_apply, val_main_v11_apply,
    val_main_call2_v0_apply, val_main_call2_cst_apply]
  simp only [Ideal.maximumf_def, Ideal.addf_def, Ideal.ofBits_def, Ideal.ofBits_zero_f32, hl, hr, hb, v9_eq]
  rfl

/-- A fold by `and` from 1 over one-bit words that are all 1 is 1. -/
theorem fold_andi_one {ι : Type} (S : Finset ι) (f : ι → BitVec 1) (h : ∀ i ∈ S, f i = 1#1) :
    S.fold IntOp.andi 1#1 f = 1#1 := by
  induction S using Finset.cons_induction with
  | empty => rfl
  | cons a S ha ih =>
    rw [Finset.fold_cons, h a (Finset.mem_cons_self a S), ih (fun i hi => h i (Finset.mem_cons.2 (Or.inr hi)))]
    rfl

/-- The look-up along the pathway axis, read at sample `b`, feature `k`: the operand at head number "start index of
    sample `b`", read signed and clamped into [0, 24]; the sample axis is a batching axis, the feature axis an offset axis. -/
theorem gather_pw {α : Type} (pw : S8192x25x128.Idx → α) (idx : IVec S8192x1x1 32) (b : Fin 8192) (k : Fin 128) :
    Host.gather gather_S8192x25x128_S8192x1x1_S8192x1x128_2_1_0_0_1_2_11128 pw idx (ix3 b 0 k)
      = pw (ix3 b ⟨min (idx (ix3 b 0 0)).toInt.toNat 24, by omega⟩ k) := by
  unfold Host.gather
  congr 1
  funext a
  refine Fin.ext ?_
  match a with
  | ⟨0, _⟩ =>
    show gather_S8192x25x128_S8192x1x1_S8192x1x128_2_1_0_0_1_2_11128.start (ix3 b 0 k) idx 0
      + gather_S8192x25x128_S8192x1x1_S8192x1x128_2_1_0_0_1_2_11128.batchCoord (ix3 b 0 k) 0
      + gather_S8192x25x128_S8192x1x1_S8192x1x128_2_1_0_0_1_2_11128.offCoord (ix3 b 0 k) 0 = b.val
    rw [GatherDims.start_batching _ _ _ _ (by decide),
      GatherDims.offCoord_eq_zero _ _ _ (fun h => ((GatherDims.mem_sKept _ _).mp h).2 (by decide))]
    unfold GatherDims.batchCoord
    rw [dif_pos (by decide)]
    simp only [Nat.zero_add, Nat.add_zero]
    rfl
  | ⟨1, _⟩ =>
    show gather_S8192x25x128_S8192x1x1_S8192x1x128_2_1_0_0_1_2_11128.start (ix3 b 0 k) idx 1
      + gather_S8192x25x128_S8192x1x1_S8192x1x128_2_1_0_0_1_2_11128.batchCoord (ix3 b 0 k) 1
      + gather_S8192x25x128_S8192x1x1_S8192x1x128_2_1_0_0_1_2_11128.offCoord (ix3 b 0 k) 1 = min (idx (ix3 b 0 0)).toInt.toNat 24
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (1 : Fin S8192x25x128.rank) ∈ gather_S8192x25x128_S8192x1x1_S8192x1x128_2_1_0_0_1_2_11128.startIndexMap by decide)]
    have hsi : gather_S8192x25x128_S8192x1x1_S8192x1x128_2_1_0_0_1_2_11128.siIdx (ix3 b 0 k)
        ⟨List.idxOf (1 : Fin S8192x25x128.rank) gather_S8192x25x128_S8192x1x1_S8192x1x128_2_1_0_0_1_2_11128.startIndexMap,
          List.idxOf_lt_length_iff.2 (by decide)⟩ = ix3 b 0 0 := by
      funext c; refine Fin.ext ?_
      match c with
      | ⟨0, _⟩ => rfl
      | ⟨1, _⟩ => rfl
      | ⟨2, _⟩ => rfl
    rw [hsi]
    rfl
  | ⟨2, _⟩ =>
    show gather_S8192x25x128_S8192x1x1_S8192x1x128_2_1_0_0_1_2_11128.start (ix3 b 0 k) idx 2
      + gather_S8192x25x128_S8192x1x1_S8192x1x128_2_1_0_0_1_2_11128.batchCoord (ix3 b 0 k) 2
      + gather_S8192x25x128_S8192x1x1_S8192x1x128_2_1_0_0_1_2_11128.offCoord (ix3 b 0 k) 2 = k.val
    rw [GatherDims.batchCoord_eq_zero _ _ _ (by decide)]
    unfold GatherDims.start
    rw [dif_neg (by decide)]
    unfold GatherDims.offCoord
    rw [dif_pos (by decide)]
    simp only [Nat.zero_add, Nat.add_zero]
    rfl

/-- The wrap-around leaves a looked-up pathway below 25 alone: it is not negative. -/
theorem call3_v4_eq (x9 : IVec S8192 32) (x10 : IVec S1448 32) (i : S8192x1x1.Idx)
    (hw : (val_main_v21 (F := Ideal) x9 x10 (idx_main_v22 i)).toNat < 25) :
    val_main_call3_v4 (F := Ideal) x9 x10 i = val_main_v21 (F := Ideal) x9 x10 (idx_main_v22 i) := by
  rw [val_main_call3_v4_apply, val_main_call3_v1_apply, val_main_v22_apply, val_main_call3_v0_apply, val_main_call3_c_apply]
  generalize val_main_v21 (F := Ideal) x9 x10 (idx_main_v22 i) = w at hw ⊢
  have h0 : IntOp.cmpi .slt w 0#32 = 0#1 := eq_zero_of_ne_one (fun h => by
    have h' := (Predicate.slt_iff_toNat (a := w) (b := 0#32) (by omega) (by decide)).1 h
    simp at h')
  rw [h0, select_zero]

/-- The range test of the look-up passes at every sample. -/
theorem call3_v10_eq (x9 : IVec S8192 32) (x10 : IVec S1448 32) (i : S8192x1x1.Idx)
    (hw : (val_main_v21 (F := Ideal) x9 x10 (idx_main_v22 i)).toNat < 25) :
    val_main_call3_v10 (F := Ideal) x9 x10 i = 1#1 := by
  rw [val_main_call3_v10_apply, val_main_call3_v6_apply, val_main_call3_v9_apply, call3_v4_eq x9 x10 i hw,
    val_main_call3_v5_apply, val_main_call3_c_2_apply, val_main_call3_v8_apply, val_main_call3_v7_apply,
    val_main_call3_c_1_apply]
  generalize val_main_v21 (F := Ideal) x9 x10 (idx_main_v22 i) = w at hw ⊢
  have h24 : (24#32 : BitVec 32).toNat = 24 := rfl
  rw [(Predicate.sge_iff_toNat (a := w) (b := 0#32) (by omega) (by decide)).2 (by simp),
    (Predicate.sle_iff_toNat (a := w) (b := 24#32) (by omega) (by decide)).2 (by omega)]
  rfl

/-- Its `and` over the one-entry last axis is 1 too. -/
theorem call3_v11_eq (x9 : IVec S8192 32) (x10 : IVec S1448 32)
    (hsel : ∀ i : S8192.Idx, (val_main_v21 (F := Ideal) x9 x10 i).toNat < 25) (j : S8192x1.Idx) :
    val_main_call3_v11 (F := Ideal) x9 x10 j = 1#1 := by
  unfold val_main_call3_v11
  rw [Host.reduce_eq_fold]
  exact fold_andi_one _ _ (fun i _ => call3_v10_eq x9 x10 i (hsel _))

/-- The look-up reads head number `p` when the clamped start index is `p`. -/
theorem call3_v12_eq (x0 : T2 8192 19200) (x1 : T2 19200 512) (x2 : T1 512) (x3 : T2 512 256) (x4 : T1 256) (x5 : T3 25 128 256) (x6 : T2 25 128)
    (x9 : IVec S8192 32) (x10 : IVec S1448 32) (b : Fin 8192) (k : Fin 128) (p : Fin 25)
    (hp : min (val_main_call3_v4 (F := Ideal) x9 x10 (ix3 b 0 0)).toInt.toNat 24 = p.val) :
    val_main_call3_v12 (F := Ideal) x0 x1 x2 x3 x4 x5 x6 x9 x10 (ix3 b 0 k)
      = val_main_v14 (F := Ideal) x0 x1 x2 x3 x4 x5 x6 (ix3 b p k) := by
  unfold val_main_call3_v12
  rw [gather_pw]
  exact congrArg (fun q => val_main_v14 (F := Ideal) x0 x1 x2 x3 x4 x5 x6 (ix3 b q k)) (Fin.ext hp)

/-- The reference's result is `out` of its arguments, with the pathway table, the drug rows and the drug biases as
    the reference's own three look-ups by drug index — whenever every looked-up pathway lies below 25. -/
theorem ref_is_out (x0 : T2 8192 19200) (x1 : T2 19200 512) (x2 : T1 512) (x3 : T2 512 256) (x4 : T1 256) (x5 : T3 25 128 256) (x6 : T2 25 128)
    (x7 : T2 1448 128) (x8 : T1 1448) (x9 : IVec S8192 32) (x10 : IVec S1448 32)
    (hsel : ∀ i : S8192.Idx, (val_main_v21 (F := Ideal) x9 x10 i).toNat < 25) :
    val_main_v41 (F := Ideal) x0 x1 x2 x3 x4 x5 x6 x7 x8 x9 x10
      = Cert.Spec.out x0 x1 x2 x3 x4 x5 x6 (Cert.Spec.selOf (val_main_v21 (F := Ideal) x9 x10))
          (val_main_v31 (F := Ideal) x7 x9) (val_main_v40 (F := Ideal) x8 x9) := by
  funext i
  obtain ⟨b, rfl⟩ : ∃ b, i = ix1 b := ⟨i 0, eq_ix1 i⟩
  have h33 : ∀ k : Fin 128, idx_main_v33 (ix1 b) k = ix2 b k := fun k =>
    funext fun a => Fin.ext (by match a with | ⟨0, _⟩ => rfl | ⟨1, _⟩ => rfl)
  have h24 : ∀ k : Fin 128, idx_main_v24 (ix2 b k) = ix3 b 0 k := fun k =>
    funext fun a => Fin.ext (by
      have hb := b.isLt
      have hk := k.isLt
      match a with
      | ⟨0, _⟩ => show (b.val * 128 + k.val) / 128 = b.val; omega
      | ⟨1, _⟩ => rfl
      | ⟨2, _⟩ => show (b.val * 128 + k.val) % 128 = k.val; omega)
  have h13 : ∀ k : Fin 128, idx_main_call3_v13 (ix3 b 0 k) = ix2 b 0 := fun k =>
    funext fun a => Fin.ext (by match a with | ⟨0, _⟩ => rfl | ⟨1, _⟩ => rfl)
  have h22 : idx_main_v22 (ix3 b (0 : Fin 1) (0 : Fin 1)) = ix1 b :=
    funext fun a => Fin.ext (by match a with | ⟨0, _⟩ => rfl)
  have hw := hsel (ix1 b)
  -- the start index of sample `b` is its looked-up pathway, which is its own clamp and its own remainder by 25
  have e4 : val_main_call3_v4 (F := Ideal) x9 x10 (ix3 b 0 0) = val_main_v21 (F := Ideal) x9 x10 (ix1 b) := by
    rw [call3_v4_eq x9 x10 _ (by rw [h22]; exact hw), h22]
  have hp : min (val_main_call3_v4 (F := Ideal) x9 x10 (ix3 b 0 0)).toInt.toNat 24
      = (Cert.Spec.selOf (val_main_v21 (F := Ideal) x9 x10) b).val := by
    rw [e4]
    show min (val_main_v21 (F := Ideal) x9 x10 (ix1 b)).toInt.toNat 24 = (val_main_v21 (F := Ideal) x9 x10 (ix1 b)).toNat % 25
    rw [Predicate.toInt_eq_toNat_of_lt (by omega), Int.toNat_natCast]
    omega
  rw [val_main_v41_apply, val_main_v33_apply]
  simp only [val_main_v32_apply, val_main_v24_apply, val_main_v23_apply, val_main_call3_v13_apply, h33, h24, h13,
    call3_v11_eq x9 x10 hsel, select_one,
    call3_v12_eq x0 x1 x2 x3 x4 x5 x6 x9 x10 b _ (Cert.Spec.selOf (val_main_v21 (F := Ideal) x9 x10) b) hp,
    v14_eq, val_main_cst_apply, Ideal.addf_def, Ideal.mulf_def, Ideal.ofBits_def, Ideal.ofBits_zero_f32, zero_add]
  rfl

end Cert.ReferenceIdeal.RefValue

end
-- ==== Proof.KernelHost.lean ====
/-
  The arrays the kernel's region is launched on, read at an index: each is a re-layout of one argument array, or a
  0/1 matrix built from index comparisons.
-/
import proofs.«414887_j69758858821908_1_alg».proof.Proof.Gen.KernelIdeal.Frame
import proofs.«414887_j69758858821908_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

noncomputable section

namespace Cert.KernelIdeal.KHost

open Cert.KernelIdeal Cert.KernelIdeal.Gen Idealize.ShloMosaic Idealize.ShloMosaic.TcCoe Idealize.SL.Sem
open Idealize.ShloMosaic.StableHlo Idealize.ShloMosaic.ValueIdx
open Cert.Spec (T1 T2 T3)

variable (m : (ℓ : Loc nD τ sig) → Buf (Elt Ideal) ℓ)

/-! ## The argument arrays and the launched arrays, at their literal types -/

abbrev argX (c : Dev nD) : T2 8192 19200 := m ((c : Thread nD τ).loc main_arg0)
abbrev argW1 (c : Dev nD) : T2 19200 512 := m ((c : Thread nD τ).loc main_arg1)
abbrev argB1 (c : Dev nD) : T1 512 := m ((c : Thread nD τ).loc main_arg2)
abbrev argW2 (c : Dev nD) : T2 512 256 := m ((c : Thread nD τ).loc main_arg3)
abbrev argB2 (c : Dev nD) : T1 256 := m ((c : Thread nD τ).loc main_arg4)
abbrev argWp (c : Dev nD) : T3 25 128 256 := m ((c : Thread nD τ).loc main_arg5)
abbrev argBp (c : Dev nD) : T2 25 128 := m ((c : Thread nD τ).loc main_arg6)
abbrev argWd (c : Dev nD) : T2 1448 128 := m ((c : Thread nD τ).loc main_arg7)
abbrev argBd (c : Dev nD) : T1 1448 := m ((c : Thread nD τ).loc main_arg8)
abbrev argDi (c : Dev nD) : IVec S8192 32 := m ((c : Thread nD τ).loc main_arg9)
abbrev argPw (c : Dev nD) : IVec S1448 32 := m ((c : Thread nD τ).loc main_arg10)

abbrev lX (c : Dev nD) : T2 8192 19200 := V m c main_arg0
abbrev lW1 (c : Dev nD) : T2 19200 512 := V m c main_v23
abbrev lW2 (c : Dev nD) : T2 512 256 := V m c main_v24
abbrev lWpT (c : Dev nD) : T2 256 3200 := V m c main_v27
abbrev lS (c : Dev nD) : T2 25 3200 := V m c main_v39
abbrev lR (c : Dev nD) : T2 3200 128 := V m c main_v49
abbrev lB1 (c : Dev nD) : T2 1 512 := V m c main_v29
abbrev lB2 (c : Dev nD) : T2 1 256 := V m c main_v30
abbrev lBp (c : Dev nD) : T2 1 3200 := V m c main_v28
abbrev lOh (c : Dev nD) : T2 8192 25 := V m c main_v7
abbrev lWg (c : Dev nD) : T2 8192 128 := V m c main_v14
abbrev lBd (c : Dev nD) : T2 8192 1 := V m c main_v22
abbrev lSel (c : Dev nD) : IVec S8192 32 := V m c main_v6

/-- The drug index of each sample, wrapped once from below as the program wraps it (a negative index has the table's
    length 1448 added), as the column of start indices the three table look-ups share. -/
def startIdx (di : IVec S8192 32) : IVec S8192x1 32 :=
  broadcastInDim S8192x1 ![0] bcast_S8192_S8192x1_0
    (select (cmpi .slt di (broadcastInDim S8192 ![] bcast_S_S8192 (constantI S_ 32 0#32)))
      (addi di (broadcastInDim S8192 ![] bcast_S_S8192 (constantI S_ 32 1448#32))) di)

/-- The three look-ups by drug index: the drug's pathway, its weight row, its bias. -/
def selTab (pw : IVec S1448 32) (di : IVec S8192 32) : IVec S8192 32 :=
  Host.gather gather_S1448_S8192x1_S8192_n_0_n_n_0_1_1 pw (startIdx di)
def wgTab (wd : T2 1448 128) (di : IVec S8192 32) : T2 8192 128 :=
  Host.gather gather_S1448x128_S8192x1_S8192x128_1_0_n_n_0_1_1128 wd (startIdx di)
def bdTab (bd : T1 1448) (di : IVec S8192 32) : T1 8192 :=
  Host.gather gather_S1448_S8192x1_S8192_n_0_n_n_0_1_1 bd (startIdx di)

/-! ## The layout operations of the launch, read at an index (over any operand) -/

/-- A 32-bit word written from a small number is that number. -/
theorem ofNat32_inj {a b : Nat} (ha : a < 2 ^ 32) (hb : b < 2 ^ 32) : BitVec.ofNat 32 a = BitVec.ofNat 32 b ↔ a = b := by
  constructor
  · intro h
    have h' := congrArg BitVec.toNat h
    rw [BitVec.toNat_ofNat, BitVec.toNat_ofNat, Nat.mod_eq_of_lt ha, Nat.mod_eq_of_lt hb] at h'
    exact h'
  · intro h; rw [h]

/-- The bit of a comparison, as an extended real: 1 when the words agree, else 0. -/
theorem bit_eq_apply (x y : BitVec 32) :
    (((IntOp.cmpi .eq x y).toNat : ℝ) : EReal) = if x = y then 1 else 0 := by
  by_cases h : x = y
  · rw [if_pos h, Predicate.cmpi_eq_iff.mpr h]; simp
  · rw [if_neg h, eq_zero_of_ne_one (mt Predicate.cmpi_eq_iff.mp h)]; simp

/-- The one-hot row of a column of words: entry (b, p) is 1 exactly when word b is p. -/
theorem oneHot_apply (s : IVec S8192 32) (b : Fin 8192) (p : Fin 25) :
    (uitofp (F := Ideal) .f32
        (cmpi .eq (broadcastInDim S8192x25 ![0, 1] bcast_S8192x1_S8192x25_0_1 (broadcastInDim S8192x1 ![0] bcast_S8192_S8192x1_0 s))
          (broadcastInDim S8192x25 ![0, 1] bcast_S1x25_S8192x25_0_1 (iotaInDim S1x25 32 1))) : T2 8192 25) (ix2 b p)
      = if s (ix1 b) = BitVec.ofNat 32 p.val then 1 else 0 := by
  have hA : broadcastInDim S8192x25 ![0, 1] bcast_S8192x1_S8192x25_0_1 (broadcastInDim S8192x1 ![0] bcast_S8192_S8192x1_0 s) (ix2 b p)
      = s (ix1 b) := by
    rw [broadcastInDim_apply _ bcast_S8192x1_S8192x25_0_1 _ (ix2 b p) (ix2 b (0 : Fin 1)) (fun a => match a with
      | ⟨0, _⟩ => by show b.val = if (8192 : Nat) = 1 then 0 else b.val; rw [if_neg (by decide)]
      | ⟨1, _⟩ => by show 0 = if (1 : Nat) = 1 then 0 else p.val; rw [if_pos rfl])]
    exact broadcastInDim_apply _ bcast_S8192_S8192x1_0 s (ix2 b (0 : Fin 1)) (ix1 b) (fun a => match a with
      | ⟨0, _⟩ => by show b.val = if (8192 : Nat) = 1 then 0 else b.val; rw [if_neg (by decide)])
  have hB : broadcastInDim S8192x25 ![0, 1] bcast_S1x25_S8192x25_0_1 (iotaInDim S1x25 32 1) (ix2 b p) = BitVec.ofNat 32 p.val := by
    rw [broadcastInDim_apply _ bcast_S1x25_S8192x25_0_1 _ (ix2 b p) (ix2 (0 : Fin 1) p) (fun a => match a with
      | ⟨0, _⟩ => by show 0 = if (1 : Nat) = 1 then 0 else b.val; rw [if_pos rfl]
      | ⟨1, _⟩ => by show p.val = if (25 : Nat) = 1 then 0 else p.val; rw [if_neg (by decide)])]
    rfl
  show (((IntOp.cmpi .eq
      (broadcastInDim S8192x25 ![0, 1] bcast_S8192x1_S8192x25_0_1 (broadcastInDim S8192x1 ![0] bcast_S8192_S8192x1_0 s) (ix2 b p))
      (broadcastInDim S8192x25 ![0, 1] bcast_S1x25_S8192x25_0_1 (iotaInDim S1x25 32 1) (ix2 b p))).toNat : ℝ) : EReal) = _
  rw [hA, hB, bit_eq_apply]

/-- The n × n identity as the program builds it (row position plus zero, compared with the column position), over 25. -/
theorem eye25_apply (p q : Fin 25) :
    (uitofp (F := Ideal) .f32
        (cmpi .eq (addi (iotaInDim S25x25 32 0) (broadcastInDim S25x25 ![] bcast_S_S25x25 (constantI S_ 32 0#32))) (iotaInDim S25x25 32 1)) : T2 25 25)
        (ix2 p q)
      = if q.val = p.val then 1 else 0 := by
  show (((IntOp.cmpi .eq (BitVec.ofNat 32 p.val + 0#32) (BitVec.ofNat 32 q.val)).toNat : ℝ) : EReal) = _
  rw [bit_eq_apply, BitVec.add_zero]
  have hp : p.val < 2 ^ 32 := by have := p.isLt; omega
  have hq : q.val < 2 ^ 32 := by have := q.isLt; omega
  by_cases h : q.val = p.val
  · rw [if_pos h, if_pos ((ofNat32_inj hp hq).mpr h.symm)]
  · rw [if_neg h, if_neg (fun h' => h ((ofNat32_inj hp hq).mp h').symm)]

/-- The same over 128. -/
theorem eye128_apply (p q : Fin 128) :
    (uitofp (F := Ideal) .f32
        (cmpi .eq (addi (iotaInDim S128x128 32 0) (broadcastInDim S128x128 ![] bcast_S_S128x128 (constantI S_ 32 0#32))) (iotaInDim S128x128 32 1)) : T2 128 128)
        (ix2 p q)
      = if p.val = q.val then 1 else 0 := by
  show (((IntOp.cmpi .eq (BitVec.ofNat 32 p.val + 0#32) (BitVec.ofNat 32 q.val)).toNat : ℝ) : EReal) = _
  rw [bit_eq_apply, BitVec.add_zero]
  have hp : p.val < 2 ^ 32 := by have := p.isLt; omega
  have hq : q.val < 2 ^ 32 := by have := q.isLt; omega
  by_cases h : p.val = q.val
  · rw [if_pos h, if_pos ((ofNat32_inj hp hq).mpr h)]
  · rw [if_neg h, if_neg (fun h' => h ((ofNat32_inj hp hq).mp h'))]

/-- A 25 × 25 matrix repeated along a new last axis of 128 and flattened to 25 × 3200: column j reads column j / 128. -/
theorem expand_apply (e : T2 25 25) (p : Fin 25) (j : Fin 3200) :
    (truncf (F := Ideal) .bf16
        (shapeCast S25x3200 (broadcastInDim S25x25x128 ![0, 1] bcast_S25x25_S25x25x128_0_1 e) shapeCasts_S25x25x128_S25x3200)
        bitsLt_bf16_f32 : T2 25 3200) (ix2 p j)
      = e (ix2 p (⟨j.val / 128, by have := j.isLt; omega⟩ : Fin 25)) := by
  show shapeCast S25x3200 (broadcastInDim S25x25x128 ![0, 1] bcast_S25x25_S25x25x128_0_1 e) shapeCasts_S25x25x128_S25x3200 (ix2 p j) = _
  rw [shapeCast_apply _ shapeCasts_S25x25x128_S25x3200 (ix2 p j)
    (ix3 p (⟨j.val / 128, by have := j.isLt; omega⟩ : Fin 25) (⟨j.val % 128, Nat.mod_lt _ (by norm_num)⟩ : Fin 128))
    (by rw [Shape.rowMajor_val_three, Shape.rowMajor_val_two]
        show (p.val * 25 + j.val / 128) * 128 + j.val % 128 = p.val * 3200 + j.val
        omega)]
  exact broadcastInDim_apply _ bcast_S25x25_S25x25x128_0_1 e _ _ (fun a => match a with
    | ⟨0, _⟩ => by show p.val = if (25 : Nat) = 1 then 0 else p.val; rw [if_neg (by decide)]
    | ⟨1, _⟩ => by show j.val / 128 = if (25 : Nat) = 1 then 0 else j.val / 128; rw [if_neg (by decide)])

/-- A 128 × 128 matrix repeated 25 times down the rows, as a 3200 × 128 matrix: row j reads row j % 128. -/
theorem collapse_apply (e : T2 128 128) (j : Fin 3200) (k : Fin 128) :
    (truncf (F := Ideal) .bf16
        (shapeCast S3200x128
          (broadcastInDim S25x128x1x128 ![0, 1, 2, 3] bcast_S1x128x1x128_S25x128x1x128_0_1_2_3
            (shapeCast S1x128x1x128 e shapeCasts_S128x128_S1x128x1x128))
          shapeCasts_S25x128x1x128_S3200x128)
        bitsLt_bf16_f32 : T2 3200 128) (ix2 j k)
      = e (ix2 (⟨j.val % 128, Nat.mod_lt _ (by norm_num)⟩ : Fin 128) k) := by
  show shapeCast S3200x128
          (broadcastInDim S25x128x1x128 ![0, 1, 2, 3] bcast_S1x128x1x128_S25x128x1x128_0_1_2_3
            (shapeCast S1x128x1x128 e shapeCasts_S128x128_S1x128x1x128))
          shapeCasts_S25x128x1x128_S3200x128 (ix2 j k) = _
  rw [shapeCast_apply _ shapeCasts_S25x128x1x128_S3200x128 (ix2 j k)
    (ix4 (⟨j.val / 128, by have := j.isLt; omega⟩ : Fin 25) (⟨j.val % 128, Nat.mod_lt _ (by norm_num)⟩ : Fin 128) (0 : Fin 1) k)
    (by rw [Shape.rowMajor_val_four, Shape.rowMajor_val_two]
        show ((j.val / 128 * 128 + j.val % 128) * 1 + 0) * 128 + k.val = j.val * 128 + k.val
        omega)]
  rw [broadcastInDim_apply _ bcast_S1x128x1x128_S25x128x1x128_0_1_2_3 _ _
    (ix4 (0 : Fin 1) (⟨j.val % 128, Nat.mod_lt _ (by norm_num)⟩ : Fin 128) (0 : Fin 1) k) (fun a => match a with
    | ⟨0, _⟩ => by show 0 = if (1 : Nat) = 1 then 0 else j.val / 128; rw [if_pos rfl]
    | ⟨1, _⟩ => by show j.val % 128 = if (128 : Nat) = 1 then 0 else j.val % 128; rw [if_neg (by decide)]
    | ⟨2, _⟩ => by show 0 = if (1 : Nat) = 1 then 0 else 0; rw [if_pos rfl]
    | ⟨3, _⟩ => by show k.val = if (128 : Nat) = 1 then 0 else k.val; rw [if_neg (by decide)])]
  exact shapeCast_apply e shapeCasts_S128x128_S1x128x1x128 _ (ix2 (⟨j.val % 128, Nat.mod_lt _ (by norm_num)⟩ : Fin 128) k)
    (by rw [Shape.rowMajor_val_four, Shape.rowMajor_val_two]
        show j.val % 128 * 128 + k.val = ((0 * 128 + j.val % 128) * 1 + 0) * 128 + k.val
        omega)

/-- The head weights flattened to 3200 rows, transposed: entry (d, j) reads head j / 128, feature j % 128, input d. -/
theorem headsT_apply (w : T3 25 128 256) (d : Fin 256) (j : Fin 3200) :
    (truncf (F := Ideal) .bf16
        (transpose S256x3200 [1, 0] (shapeCast S3200x256 w shapeCasts_S25x128x256_S3200x256) transposes_S3200x256_S256x3200_1_0)
        bitsLt_bf16_f32 : T2 256 3200) (ix2 d j)
      = w (ix3 (⟨j.val / 128, by have := j.isLt; omega⟩ : Fin 25) (⟨j.val % 128, Nat.mod_lt _ (by norm_num)⟩ : Fin 128) d) := by
  show transpose S256x3200 [1, 0] (shapeCast S3200x256 w shapeCasts_S25x128x256_S3200x256) transposes_S3200x256_S256x3200_1_0 (ix2 d j) = _
  rw [transpose_apply [1, 0] _ transposes_S3200x256_S256x3200_1_0 (ix2 d j) (ix2 j d) (fun b => match b with
    | ⟨0, _⟩ => rfl
    | ⟨1, _⟩ => rfl)]
  exact shapeCast_apply w shapeCasts_S25x128x256_S3200x256 (ix2 j d) _
    (by rw [Shape.rowMajor_val_three, Shape.rowMajor_val_two]
        show (j.val / 128 * 128 + j.val % 128) * 256 + d.val = j.val * 256 + d.val
        omega)

/-- The head biases flattened to one row of 3200. -/
theorem headBias_apply (v : T2 25 128) (j : Fin 3200) :
    (shapeCast S1x3200 v shapeCasts_S25x128_S1x3200 : T2 1 3200) (ix2 (0 : Fin 1) j)
      = v (ix2 (⟨j.val / 128, by have := j.isLt; omega⟩ : Fin 25) (⟨j.val % 128, Nat.mod_lt _ (by norm_num)⟩ : Fin 128)) :=
  shapeCast_apply v shapeCasts_S25x128_S1x3200 _ _
    (by rw [Shape.rowMajor_val_two, Shape.rowMajor_val_two]
        show j.val / 128 * 128 + j.val % 128 = 0 * 3200 + j.val
        omega)

/-- A vector of 512 as one row. -/
theorem row512_apply (v : T1 512) (i : Fin 512) :
    (shapeCast S1x512 v shapeCasts_S512_S1x512 : T2 1 512) (ix2 (0 : Fin 1) i) = v (ix1 i) :=
  shapeCast_apply v shapeCasts_S512_S1x512 _ _
    (by rw [Shape.rowMajor_val_one, Shape.rowMajor_val_two]
        show i.val = 0 * 512 + i.val
        omega)

/-- A vector of 256 as one row. -/
theorem row256_apply (v : T1 256) (d : Fin 256) :
    (shapeCast S1x256 v shapeCasts_S256_S1x256 : T2 1 256) (ix2 (0 : Fin 1) d) = v (ix1 d) :=
  shapeCast_apply v shapeCasts_S256_S1x256 _ _
    (by rw [Shape.rowMajor_val_one, Shape.rowMajor_val_two]
        show d.val = 0 * 256 + d.val
        omega)

/-- A vector of 8192 as one column. -/
theorem col8192_apply (v : T1 8192) (b : Fin 8192) :
    (broadcastInDim S8192x1 ![0] bcast_S8192_S8192x1_0 v : T2 8192 1) (ix2 b (0 : Fin 1)) = v (ix1 b) :=
  broadcastInDim_apply _ bcast_S8192_S8192x1_0 v _ _ (fun a => match a with
    | ⟨0, _⟩ => by show b.val = if (8192 : Nat) = 1 then 0 else b.val; rw [if_neg (by decide)])

/-- Reads the goal's left side — an array as the region is entered — as the composed term of the operations that wrote
    it: unfolds the three stretches of operations into one list and evaluates the fold at the goal's reference. -/
local macro "launched_term" : tactic => `(tactic| (
  dsimp only [V, V0]
  simp only [hostOps0, hostOps0_1, hostOps0_2, List.flatten_cons, List.flatten_nil, List.append_nil, List.cons_append,
    List.nil_append]
  after_results_simp
  first | done | rfl))

/-! ## Each launched array at an index -/

theorem lX_eq (c : Dev nD) : lX m c = argX m c := V_main_arg0 m c

theorem lW1_apply (c : Dev nD) (i : (⟨2, ![19200, 512]⟩ : Shape).Idx) : lW1 m c i = argW1 m c i := by
  have e : (lW1 m c : T2 19200 512) = truncf (F := Ideal) .bf16 (argW1 m c) bitsLt_bf16_f32 := by
    dsimp only [lW1, argW1]; launched_term
  rw [e]; rfl

theorem lW2_apply (c : Dev nD) (i : (⟨2, ![512, 256]⟩ : Shape).Idx) : lW2 m c i = argW2 m c i := by
  have e : (lW2 m c : T2 512 256) = truncf (F := Ideal) .bf16 (argW2 m c) bitsLt_bf16_f32 := by
    dsimp only [lW2, argW2]; launched_term
  rw [e]; rfl

theorem lWpT_apply (c : Dev nD) (d : Fin 256) (j : Fin 3200) :
    lWpT m c (ix2 d j) = argWp m c (ix3 (⟨j.val / 128, by have := j.isLt; omega⟩ : Fin 25) (⟨j.val % 128, Nat.mod_lt _ (by norm_num)⟩ : Fin 128) d) := by
  have e : (lWpT m c : T2 256 3200) = truncf (F := Ideal) .bf16
      (transpose S256x3200 [1, 0] (shapeCast S3200x256 (argWp m c) shapeCasts_S25x128x256_S3200x256) transposes_S3200x256_S256x3200_1_0)
      bitsLt_bf16_f32 := by
    dsimp only [lWpT, argWp]; launched_term
  rw [e]; exact headsT_apply (argWp m c) d j

theorem lS_apply (c : Dev nD) (p : Fin 25) (j : Fin 3200) :
    lS m c (ix2 p j) = if j.val / 128 = p.val then 1 else 0 := by
  have e : (lS m c : T2 25 3200) = truncf (F := Ideal) .bf16
      (shapeCast S25x3200
        (broadcastInDim S25x25x128 ![0, 1] bcast_S25x25_S25x25x128_0_1
          (uitofp (F := Ideal) .f32
            (cmpi .eq (addi (iotaInDim S25x25 32 0) (broadcastInDim S25x25 ![] bcast_S_S25x25 (constantI S_ 32 0#32))) (iotaInDim S25x25 32 1))))
        shapeCasts_S25x25x128_S25x3200)
      bitsLt_bf16_f32 := by
    dsimp only [lS]; launched_term
  rw [e, expand_apply]
  exact eye25_apply p (⟨j.val / 128, by have := j.isLt; omega⟩ : Fin 25)

theorem lR_apply (c : Dev nD) (j : Fin 3200) (k : Fin 128) :
    lR m c (ix2 j k) = if j.val % 128 = k.val then 1 else 0 := by
  have e : (lR m c : T2 3200 128) = truncf (F := Ideal) .bf16
      (shapeCast S3200x128
        (broadcastInDim S25x128x1x128 ![0, 1, 2, 3] bcast_S1x128x1x128_S25x128x1x128_0_1_2_3
          (shapeCast S1x128x1x128
            (uitofp (F := Ideal) .f32
              (cmpi .eq (addi (iotaInDim S128x128 32 0) (broadcastInDim S128x128 ![] bcast_S_S128x128 (constantI S_ 32 0#32))) (iotaInDim S128x128 32 1)))
            shapeCasts_S128x128_S1x128x1x128))
        shapeCasts_S25x128x1x128_S3200x128)
      bitsLt_bf16_f32 := by
    dsimp only [lR]; launched_term
  rw [e, collapse_apply]
  exact eye128_apply (⟨j.val % 128, Nat.mod_lt _ (by norm_num)⟩ : Fin 128) k

theorem lB1_apply (c : Dev nD) (i : Fin 512) : lB1 m c (ix2 0 i) = argB1 m c (ix1 i) := by
  have e : (lB1 m c : T2 1 512) = shapeCast S1x512 (argB1 m c) shapeCasts_S512_S1x512 := by
    dsimp only [lB1, argB1]; launched_term
  rw [e]; exact row512_apply (argB1 m c) i

theorem lB2_apply (c : Dev nD) (d : Fin 256) : lB2 m c (ix2 0 d) = argB2 m c (ix1 d) := by
  have e : (lB2 m c : T2 1 256) = shapeCast S1x256 (argB2 m c) shapeCasts_S256_S1x256 := by
    dsimp only [lB2, argB2]; launched_term
  rw [e]; exact row256_apply (argB2 m c) d

theorem lBp_apply (c : Dev nD) (j : Fin 3200) :
    lBp m c (ix2 0 j) = argBp m c (ix2 (⟨j.val / 128, by have := j.isLt; omega⟩ : Fin 25) (⟨j.val % 128, Nat.mod_lt _ (by norm_num)⟩ : Fin 128)) := by
  have e : (lBp m c : T2 1 3200) = shapeCast S1x3200 (argBp m c) shapeCasts_S25x128_S1x3200 := by
    dsimp only [lBp, argBp]; launched_term
  rw [e]; exact headBias_apply (argBp m c) j

theorem lSel_eq (c : Dev nD) : lSel m c = selTab (argPw m c) (argDi m c) := by
  dsimp only [lSel, argPw, argDi]; launched_term

theorem lOh_apply (c : Dev nD) (b : Fin 8192) (p : Fin 25) :
    lOh m c (ix2 b p) = if lSel m c (ix1 b) = BitVec.ofNat 32 p.val then 1 else 0 := by
  have e : (lOh m c : T2 8192 25) = uitofp (F := Ideal) .f32
      (cmpi .eq
        (broadcastInDim S8192x25 ![0, 1] bcast_S8192x1_S8192x25_0_1
          (broadcastInDim S8192x1 ![0] bcast_S8192_S8192x1_0 (selTab (argPw m c) (argDi m c))))
        (broadcastInDim S8192x25 ![0, 1] bcast_S1x25_S8192x25_0_1 (iotaInDim S1x25 32 1))) := by
    dsimp only [lOh, argPw, argDi]; launched_term
  rw [e, oneHot_apply, lSel_eq]

theorem lWg_eq (c : Dev nD) : lWg m c = wgTab (argWd m c) (argDi m c) := by
  dsimp only [lWg, argWd, argDi]; launched_term

theorem lBd_apply (c : Dev nD) (b : Fin 8192) : lBd m c (ix2 b 0) = bdTab (argBd m c) (argDi m c) (ix1 b) := by
  have e : (lBd m c : T2 8192 1) = broadcastInDim S8192x1 ![0] bcast_S8192_S8192x1_0 (bdTab (argBd m c) (argDi m c)) := by
    dsimp only [lBd, argBd, argDi]; launched_term
  rw [e]; exact col8192_apply (bdTab (argBd m c) (argDi m c)) b

end Cert.KernelIdeal.KHost

end
-- ==== Proof.KernelValue.lean ====
/-
  What the kernel's run leaves in its result: block `t` of the region's output column holds, in row `r`, the
  kernel-arrangement output of sample `64·t + r`; the 128 blocks tile the column; and the one host operation after the
  region only drops the column's unit axis.
-/
import proofs.«414887_j69758858821908_1_alg».proof.Proof.Gen.KernelIdeal.Frame
import proofs.«414887_j69758858821908_1_alg».proof.Proof.Spec
import proofs.«414887_j69758858821908_1_alg».proof.Proof.KernelHost
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.KValue

open Cert.KernelIdeal Cert.KernelIdeal.Gen Cert.KernelIdeal.KHost Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-! ## A block product read at an entry -/

/-- A product of an `M × K` block by a `K × N` block into the zero splat, read at `(r, c)`, is the sum over the shared
    axis of the row's entries times the column's — for any dimension numbers whose operand indices at `(r, c)` and
    contraction position `q` are `(r, q)` and `(q, c)`. -/
theorem matmul_rc {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (r : Fin M) (c : Fin N) :
    FloatOps.matmul D none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

/-- The first dense layer's product: its four operand coordinates, and the product at an entry. -/
theorem dense1_l0 (i : S64x512.Idx) (q : dot_S64x19200_S19200x512_S64x512_1_0_0_1_n_n.contr.Idx) : (dot_S64x19200_S19200x512_S64x512_1_0_0_1_n_n.lhsIdx i q 0).val = (i 0).val := by
  unfold DotDims.lhsIdx
  rw [dif_neg (show ¬(0 : Fin S64x19200.rank) ∈ dot_S64x19200_S19200x512_S64x512_1_0_0_1_n_n.lhsBatch by decide), dif_pos (show (0 : Fin S64x19200.rank) ∈ dot_S64x19200_S19200x512_S64x512_1_0_0_1_n_n.lhsNonContracting by decide)]
  rfl
theorem dense1_l1 (i : S64x512.Idx) (q : dot_S64x19200_S19200x512_S64x512_1_0_0_1_n_n.contr.Idx) : (dot_S64x19200_S19200x512_S64x512_1_0_0_1_n_n.lhsIdx i q 1).val = (q ⟨0, by decide⟩).val :=
  dot_S64x19200_S19200x512_S64x512_1_0_0_1_n_n.lhsIdx_val_of_single rfl i q
theorem dense1_r0 (i : S64x512.Idx) (q : dot_S64x19200_S19200x512_S64x512_1_0_0_1_n_n.contr.Idx) : (dot_S64x19200_S19200x512_S64x512_1_0_0_1_n_n.rhsIdx i q 0).val = (q ⟨0, by decide⟩).val :=
  dot_S64x19200_S19200x512_S64x512_1_0_0_1_n_n.rhsIdx_val_of_single rfl i q
theorem dense1_r1 (i : S64x512.Idx) (q : dot_S64x19200_S19200x512_S64x512_1_0_0_1_n_n.contr.Idx) : (dot_S64x19200_S19200x512_S64x512_1_0_0_1_n_n.rhsIdx i q 1).val = (i 1).val := by
  unfold DotDims.rhsIdx
  rw [dif_neg (show ¬(1 : Fin S19200x512.rank) ∈ dot_S64x19200_S19200x512_S64x512_1_0_0_1_n_n.rhsBatch by decide), dif_pos (show (1 : Fin S19200x512.rank) ∈ dot_S64x19200_S19200x512_S64x512_1_0_0_1_n_n.rhsNonContracting by decide)]
  rfl
theorem dense1_apply {φ₁ φ₂ : FTy} (lhs : FVec Ideal S64x19200 φ₁) (rhs : FVec Ideal S19200x512 φ₂) (r : Fin 64) (c : Fin 512) :
    matmul dot_S64x19200_S19200x512_S64x512_1_0_0_1_n_n none lhs rhs (constant S64x512 .f32 0x00000000#32) (ix2 r c) = ∑ k : Fin 19200, lhs (ix2 r k) * rhs (ix2 k c) :=
  matmul_rc dot_S64x19200_S19200x512_S64x512_1_0_0_1_n_n rfl rfl dense1_l0 dense1_l1 dense1_r0 dense1_r1 lhs rhs r c

/-- The second dense layer's product. -/
theorem dense2_l0 (i : S64x256.Idx) (q : dot_S64x512_S512x256_S64x256_1_0_0_1_n_n.contr.Idx) : (dot_S64x512_S512x256_S64x256_1_0_0_1_n_n.lhsIdx i q 0).val = (i 0).val := by
  unfold DotDims.lhsIdx
  rw [dif_neg (show ¬(0 : Fin S64x512.rank) ∈ dot_S64x512_S512x256_S64x256_1_0_0_1_n_n.lhsBatch by decide), dif_pos (show (0 : Fin S64x512.rank) ∈ dot_S64x512_S512x256_S64x256_1_0_0_1_n_n.lhsNonContracting by decide)]
  rfl
theorem dense2_l1 (i : S64x256.Idx) (q : dot_S64x512_S512x256_S64x256_1_0_0_1_n_n.contr.Idx) : (dot_S64x512_S512x256_S64x256_1_0_0_1_n_n.lhsIdx i q 1).val = (q ⟨0, by decide⟩).val :=
  dot_S64x512_S512x256_S64x256_1_0_0_1_n_n.lhsIdx_val_of_single rfl i q
theorem dense2_r0 (i : S64x256.Idx) (q : dot_S64x512_S512x256_S64x256_1_0_0_1_n_n.contr.Idx) : (dot_S64x512_S512x256_S64x256_1_0_0_1_n_n.rhsIdx i q 0).val = (q ⟨0, by decide⟩).val :=
  dot_S64x512_S512x256_S64x256_1_0_0_1_n_n.rhsIdx_val_of_single rfl i q
theorem dense2_r1 (i : S64x256.Idx) (q : dot_S64x512_S512x256_S64x256_1_0_0_1_n_n.contr.Idx) : (dot_S64x512_S512x256_S64x256_1_0_0_1_n_n.rhsIdx i q 1).val = (i 1).val := by
  unfold DotDims.rhsIdx
  rw [dif_neg (show ¬(1 : Fin S512x256.rank) ∈ dot_S64x512_S512x256_S64x256_1_0_0_1_n_n.rhsBatch by decide), dif_pos (show (1 : Fin S512x256.rank) ∈ dot_S64x512_S512x256_S64x256_1_0_0_1_n_n.rhsNonContracting by decide)]
  rfl
theorem dense2_apply {φ₁ φ₂ : FTy} (lhs : FVec Ideal S64x512 φ₁) (rhs : FVec Ideal S512x256 φ₂) (r : Fin 64) (c : Fin 256) :
    matmul dot_S64x512_S512x256_S64x256_1_0_0_1_n_n none lhs rhs (constant S64x256 .f32 0x00000000#32) (ix2 r c) = ∑ k : Fin 512, lhs (ix2 r k) * rhs (ix2 k c) :=
  matmul_rc dot_S64x512_S512x256_S64x256_1_0_0_1_n_n rfl rfl dense2_l0 dense2_l1 dense2_r0 dense2_r1 lhs rhs r c

/-- The product onto the 25 flattened heads. -/
theorem heads_l0 (i : S64x3200.Idx) (q : dot_S64x256_S256x3200_S64x3200_1_0_0_1_n_n.contr.Idx) : (dot_S64x256_S256x3200_S64x3200_1_0_0_1_n_n.lhsIdx i q 0).val = (i 0).val := by
  unfold DotDims.lhsIdx
  rw [dif_neg (show ¬(0 : Fin S64x256.rank) ∈ dot_S64x256_S256x3200_S64x3200_1_0_0_1_n_n.lhsBatch by decide), dif_pos (show (0 : Fin S64x256.rank) ∈ dot_S64x256_S256x3200_S64x3200_1_0_0_1_n_n.lhsNonContracting by decide)]
  rfl
theorem heads_l1 (i : S64x3200.Idx) (q : dot_S64x256_S256x3200_S64x3200_1_0_0_1_n_n.contr.Idx) : (dot_S64x256_S256x3200_S64x3200_1_0_0_1_n_n.lhsIdx i q 1).val = (q ⟨0, by decide⟩).val :=
  dot_S64x256_S256x3200_S64x3200_1_0_0_1_n_n.lhsIdx_val_of_single rfl i q
theorem heads_r0 (i : S64x3200.Idx) (q : dot_S64x256_S256x3200_S64x3200_1_0_0_1_n_n.contr.Idx) : (dot_S64x256_S256x3200_S64x3200_1_0_0_1_n_n.rhsIdx i q 0).val = (q ⟨0, by decide⟩).val :=
  dot_S64x256_S256x3200_S64x3200_1_0_0_1_n_n.rhsIdx_val_of_single rfl i q
theorem heads_r1 (i : S64x3200.Idx) (q : dot_S64x256_S256x3200_S64x3200_1_0_0_1_n_n.contr.Idx) : (dot_S64x256_S256x3200_S64x3200_1_0_0_1_n_n.rhsIdx i q 1).val = (i 1).val := by
  unfold DotDims.rhsIdx
  rw [dif_neg (show ¬(1 : Fin S256x3200.rank) ∈ dot_S64x256_S256x3200_S64x3200_1_0_0_1_n_n.rhsBatch by decide), dif_pos (show (1 : Fin S256x3200.rank) ∈ dot_S64x256_S256x3200_S64x3200_1_0_0_1_n_n.rhsNonContracting by decide)]
  rfl
theorem heads_apply {φ₁ φ₂ : FTy} (lhs : FVec Ideal S64x256 φ₁) (rhs : FVec Ideal S256x3200 φ₂) (r : Fin 64) (c : Fin 3200) :
    matmul dot_S64x256_S256x3200_S64x3200_1_0_0_1_n_n none lhs rhs (constant S64x3200 .f32 0x00000000#32) (ix2 r c) = ∑ k : Fin 256, lhs (ix2 r k) * rhs (ix2 k c) :=
  matmul_rc dot_S64x256_S256x3200_S64x3200_1_0_0_1_n_n rfl rfl heads_l0 heads_l1 heads_r0 heads_r1 lhs rhs r c

/-- The one-hot row expanded to the 3200 columns. -/
theorem expand_l0 (i : S64x3200.Idx) (q : dot_S64x25_S25x3200_S64x3200_1_0_0_1_n_n.contr.Idx) : (dot_S64x25_S25x3200_S64x3200_1_0_0_1_n_n.lhsIdx i q 0).val = (i 0).val := by
  unfold DotDims.lhsIdx
  rw [dif_neg (show ¬(0 : Fin S64x25.rank) ∈ dot_S64x25_S25x3200_S64x3200_1_0_0_1_n_n.lhsBatch by decide), dif_pos (show (0 : Fin S64x25.rank) ∈ dot_S64x25_S25x3200_S64x3200_1_0_0_1_n_n.lhsNonContracting by decide)]
  rfl
theorem expand_l1 (i : S64x3200.Idx) (q : dot_S64x25_S25x3200_S64x3200_1_0_0_1_n_n.contr.Idx) : (dot_S64x25_S25x3200_S64x3200_1_0_0_1_n_n.lhsIdx i q 1).val = (q ⟨0, by decide⟩).val :=
  dot_S64x25_S25x3200_S64x3200_1_0_0_1_n_n.lhsIdx_val_of_single rfl i q
theorem expand_r0 (i : S64x3200.Idx) (q : dot_S64x25_S25x3200_S64x3200_1_0_0_1_n_n.contr.Idx) : (dot_S64x25_S25x3200_S64x3200_1_0_0_1_n_n.rhsIdx i q 0).val = (q ⟨0, by decide⟩).val :=
  dot_S64x25_S25x3200_S64x3200_1_0_0_1_n_n.rhsIdx_val_of_single rfl i q
theorem expand_r1 (i : S64x3200.Idx) (q : dot_S64x25_S25x3200_S64x3200_1_0_0_1_n_n.contr.Idx) : (dot_S64x25_S25x3200_S64x3200_1_0_0_1_n_n.rhsIdx i q 1).val = (i 1).val := by
  unfold DotDims.rhsIdx
  rw [dif_neg (show ¬(1 : Fin S25x3200.rank) ∈ dot_S64x25_S25x3200_S64x3200_1_0_0_1_n_n.rhsBatch by decide), dif_pos (show (1 : Fin S25x3200.rank) ∈ dot_S64x25_S25x3200_S64x3200_1_0_0_1_n_n.rhsNonContracting by decide)]
  rfl
theorem expand_apply {φ₁ φ₂ : FTy} (lhs : FVec Ideal S64x25 φ₁) (rhs : FVec Ideal S25x3200 φ₂) (r : Fin 64) (c : Fin 3200) :
    matmul dot_S64x25_S25x3200_S64x3200_1_0_0_1_n_n none lhs rhs (constant S64x3200 .f32 0x00000000#32) (ix2 r c) = ∑ k : Fin 25, lhs (ix2 r k) * rhs (ix2 k c) :=
  matmul_rc dot_S64x25_S25x3200_S64x3200_1_0_0_1_n_n rfl rfl expand_l0 expand_l1 expand_r0 expand_r1 lhs rhs r c

/-- The 3200 columns collapsed to 128 features. -/
theorem collapse_l0 (i : S64x128.Idx) (q : dot_S64x3200_S3200x128_S64x128_1_0_0_1_n_n.contr.Idx) : (dot_S64x3200_S3200x128_S64x128_1_0_0_1_n_n.lhsIdx i q 0).val = (i 0).val := by
  unfold DotDims.lhsIdx
  rw [dif_neg (show ¬(0 : Fin S64x3200.rank) ∈ dot_S64x3200_S3200x128_S64x128_1_0_0_1_n_n.lhsBatch by decide), dif_pos (show (0 : Fin S64x3200.rank) ∈ dot_S64x3200_S3200x128_S64x128_1_0_0_1_n_n.lhsNonContracting by decide)]
  rfl
theorem collapse_l1 (i : S64x128.Idx) (q : dot_S64x3200_S3200x128_S64x128_1_0_0_1_n_n.contr.Idx) : (dot_S64x3200_S3200x128_S64x128_1_0_0_1_n_n.lhsIdx i q 1).val = (q ⟨0, by decide⟩).val :=
  dot_S64x3200_S3200x128_S64x128_1_0_0_1_n_n.lhsIdx_val_of_single rfl i q
theorem collapse_r0 (i : S64x128.Idx) (q : dot_S64x3200_S3200x128_S64x128_1_0_0_1_n_n.contr.Idx) : (dot_S64x3200_S3200x128_S64x128_1_0_0_1_n_n.rhsIdx i q 0).val = (q ⟨0, by decide⟩).val :=
  dot_S64x3200_S3200x128_S64x128_1_0_0_1_n_n.rhsIdx_val_of_single rfl i q
theorem collapse_r1 (i : S64x128.Idx) (q : dot_S64x3200_S3200x128_S64x128_1_0_0_1_n_n.contr.Idx) : (dot_S64x3200_S3200x128_S64x128_1_0_0_1_n_n.rhsIdx i q 1).val = (i 1).val := by
  unfold DotDims.rhsIdx
  rw [dif_neg (show ¬(1 : Fin S3200x128.rank) ∈ dot_S64x3200_S3200x128_S64x128_1_0_0_1_n_n.rhsBatch by decide), dif_pos (show (1 : Fin S3200x128.rank) ∈ dot_S64x3200_S3200x128_S64x128_1_0_0_1_n_n.rhsNonContracting by decide)]
  rfl
theorem collapse_apply {φ₁ φ₂ : FTy} (lhs : FVec Ideal S64x3200 φ₁) (rhs : FVec Ideal S3200x128 φ₂) (r : Fin 64) (c : Fin 128) :
    matmul dot_S64x3200_S3200x128_S64x128_1_0_0_1_n_n none lhs rhs (constant S64x128 .f32 0x00000000#32) (ix2 r c) = ∑ k : Fin 3200, lhs (ix2 r k) * rhs (ix2 k c) :=
  matmul_rc dot_S64x3200_S3200x128_S64x128_1_0_0_1_n_n rfl rfl collapse_l0 collapse_l1 collapse_r0 collapse_r1 lhs rhs r c

/-! ## The body's value at an entry of its block -/

/-- The zero word of a clamp is the extended real `0`. -/
theorem zero_word : (Scalar.ofBits .f32 0x00000000#32 : Ideal .f32) = 0 := Ideal.ofBits_zero_f32

/-- The lane sum of a `64 × 128` block, kept as a column: row `r` holds the sum of that row's 128 entries. -/
theorem laneSum_col (v : FVec Ideal S64x128 .f32) (r : Fin 64) (u : Fin 1) :
    shapeCast S64x1 (multiReduction .add [1] S64 v 0x00000000#32 reduces_S64x128_S64 (.inl rfl) rfl) shapeCasts_S64_S64x1 (ix2 r u)
      = ∑ k : Fin 128, v (ix2 r k) := by
  refine (shapeCast_apply _ shapeCasts_S64_S64x1 (ix2 r u) (ix1 r) ?_).trans ?_
  · rw [Shape.rowMajor_val_one, Shape.rowMajor_val_two]
    show r.val = r.val * 1 + u.val
    omega
  · refine (Ideal.multiReduction_add_single v 0x00000000#32 reduces_S64x128_S64 (.inl rfl) rfl (ix1 r)).trans ?_
    show ∑ k : Fin 128, v (reduces_S64x128_S64.lift (ix1 r) k) = ∑ k : Fin 128, v (ix2 r k)
    refine Finset.sum_congr rfl fun k _ => congrArg v (funext fun a => Fin.ext ?_)
    match a with
    | ⟨0, _⟩ => rfl
    | ⟨1, _⟩ => rfl

/-- The body's stored value at row `r` of its block, from the twelve blocks it loads: two dense layers clamped at zero,
    the 3200 head columns clamped at zero, weighted by the expanded one-hot row, collapsed to 128 features, dotted with
    the row of drug weights, plus the drug bias. -/
theorem payload_apply (x0 : FVec Ideal S64x19200 .f32) (x1 : FVec Ideal S19200x512 .bf16) (x2 : FVec Ideal S512x256 .bf16)
    (x3 : FVec Ideal S256x3200 .bf16) (x4 : FVec Ideal S25x3200 .bf16) (x5 : FVec Ideal S3200x128 .bf16)
    (x6 : FVec Ideal S1x512 .f32) (x7 : FVec Ideal S1x256 .f32) (x8 : FVec Ideal S1x3200 .f32)
    (x9 : FVec Ideal S64x25 .f32) (x10 : FVec Ideal S64x128 .f32) (x11 : FVec Ideal S64x1 .f32) (r : Fin 64) (u : Fin 1) :
    k0_pay1 (k0_pay2 x0 x1 x6 x2 x7 x3 x8) (k0_pay3 x9) x4 x5 x10 x11 (ix2 r u)
      = (∑ k : Fin 128, (∑ j : Fin 3200,
            (max ((∑ d : Fin 256, max ((∑ i : Fin 512, max ((∑ a : Fin 19200, x0 (ix2 r a) * x1 (ix2 a i)) + x6 (ix2 0 i)) 0
                * x2 (ix2 i d)) + x7 (ix2 0 d)) 0 * x3 (ix2 d j)) + x8 (ix2 0 j)) 0
              * (∑ p : Fin 25, x9 (ix2 r p) * x4 (ix2 p j))) * x5 (ix2 j k)) * x10 (ix2 r k)) + x11 (ix2 r u) := by
  unfold k0_pay1 k0_pay2 k0_pay3
  simp only [shapeCast_self, addf_apply]
  refine congrArg (· + x11 (ix2 r u)) ?_
  refine (laneSum_col _ r u).trans ?_
  simp only [mulf_apply, collapse_apply, truncf_apply, expand_apply, maximumf_apply,
    heads_apply, dense2_apply, dense1_apply, addf_apply, broadcastTo_1b_ab_apply, broadcast_apply, zero_word]

/-! ## From the blocks to the column -/

theorem hz : (![0, 0] : Fin 2 → Nat) = fun _ => 0 := funext fun a => by fin_cases a <;> rfl

/-- The grid's points are below 128. -/
theorem pt_lt (t : Fin cfg0.N) : t.val < 128 := lt_of_lt_of_eq t.isLt N_0

/-- Sample `64·t + r`: row `r` of the block of 64 samples that grid point `t` works on. -/
def sample (t : Fin cfg0.N) (r : Fin 64) : Fin 8192 := ⟨64 * t.val + r.val, by have := pt_lt t; have := r.isLt; omega⟩

/-- The printed index maps, decided once over the grid: the per-sample windows (the input rows, the one-hot rows, the
    drug rows, the drug biases, the output column) sit at row block `t`; the weight windows are whole. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-! ### Each staged block read off its launched array -/

/-- The input block at point `t` is rows `64·t … 64·t + 63` of the input. -/
theorem blkX_apply (c : Dev nD) (t : Fin cfg0.N) (r : Fin 64) (a : Fin 19200) :
    (iblk m c 0 t : FVec Ideal S64x19200 .f32) (ix2 r a) = lX m c (ix2 (sample t r) a) := by
  unfold iblk
  rw [View.read_apply]
  show V m c main_arg0 _ = V m c main_arg0 _
  congr 1
  funext ax
  apply Fin.ext
  match ax with
  | ⟨0, _⟩ => show win0_0.index t 0 * 64 + 1 * r.val = 64 * t.val + r.val; rw [(idx_facts t).1.1]; omega
  | ⟨1, _⟩ => show win0_0.index t 1 * 19200 + 1 * a.val = a.val; rw [(idx_facts t).1.2]; omega

/-- The first layer's weights are staged whole. -/
theorem blkW1_apply (c : Dev nD) (t : Fin cfg0.N) (a : Fin 19200) (i : Fin 512) :
    (iblk m c 1 t : FVec Ideal S19200x512 .bf16) (ix2 a i) = lW1 m c (ix2 a i) := by
  unfold iblk
  rw [View.read_apply]
  show V m c main_v23 _ = V m c main_v23 _
  congr 1
  funext ax
  apply Fin.ext
  match ax with
  | ⟨0, _⟩ => show win0_1.index t 0 * 19200 + 1 * a.val = a.val; rw [(idx_facts t).2.1.1]; omega
  | ⟨1, _⟩ => show win0_1.index t 1 * 512 + 1 * i.val = i.val; rw [(idx_facts t).2.1.2]; omega

/-- The second layer's weights are staged whole. -/
theorem blkW2_apply (c : Dev nD) (t : Fin cfg0.N) (i : Fin 512) (d : Fin 256) :
    (iblk m c 2 t : FVec Ideal S512x256 .bf16) (ix2 i d) = lW2 m c (ix2 i d) := by
  unfold iblk
  rw [View.read_apply]
  show V m c main_v24 _ = V m c main_v24 _
  congr 1
  funext ax
  apply Fin.ext
  match ax with
  | ⟨0, _⟩ => show win0_2.index t 0 * 512 + 1 * i.val = i.val; rw [(idx_facts t).2.2.1.1]; omega
  | ⟨1, _⟩ => show win0_2.index t 1 * 256 + 1 * d.val = d.val; rw [(idx_facts t).2.2.1.2]; omega

/-- The flattened heads' weights are staged whole. -/
theorem blkWpT_apply (c : Dev nD) (t : Fin cfg0.N) (d : Fin 256) (j : Fin 3200) :
    (iblk m c 3 t : FVec Ideal S256x3200 .bf16) (ix2 d j) = lWpT m c (ix2 d j) := by
  unfold iblk
  rw [View.read_apply]
  show V m c main_v27 _ = V m c main_v27 _
  congr 1
  funext ax
  apply Fin.ext
  match ax with
  | ⟨0, _⟩ => show win0_3.index t 0 * 256 + 1 * d.val = d.val; rw [(idx_facts t).2.2.2.1.1]; omega
  | ⟨1, _⟩ => show win0_3.index t 1 * 3200 + 1 * j.val = j.val; rw [(idx_facts t).2.2.2.1.2]; omega

/-- The expanding 0/1 matrix is staged whole. -/
theorem blkS_apply (c : Dev nD) (t : Fin cfg0.N) (p : Fin 25) (j : Fin 3200) :
    (iblk m c 4 t : FVec Ideal S25x3200 .bf16) (ix2 p j) = lS m c (ix2 p j) := by
  unfold iblk
  rw [View.read_apply]
  show V m c main_v39 _ = V m c main_v39 _
  congr 1
  funext ax
  apply Fin.ext
  match ax with
  | ⟨0, _⟩ => show win0_4.index t 0 * 25 + 1 * p.val = p.val; rw [(idx_facts t).2.2.2.2.1.1]; omega
  | ⟨1, _⟩ => show win0_4.index t 1 * 3200 + 1 * j.val = j.val; rw [(idx_facts t).2.2.2.2.1.2]; omega

/-- The collapsing 0/1 matrix is staged whole. -/
theorem blkR_apply (c : Dev nD) (t : Fin cfg0.N) (j : Fin 3200) (k : Fin 128) :
    (iblk m c 5 t : FVec Ideal S3200x128 .bf16) (ix2 j k) = lR m c (ix2 j k) := by
  unfold iblk
  rw [View.read_apply]
  show V m c main_v49 _ = V m c main_v49 _
  congr 1
  funext ax
  apply Fin.ext
  match ax with
  | ⟨0, _⟩ => show win0_5.index t 0 * 3200 + 1 * j.val = j.val; rw [(idx_facts t).2.2.2.2.2.1.1]; omega
  | ⟨1, _⟩ => show win0_5.index t 1 * 128 + 1 * k.val = k.val; rw [(idx_facts t).2.2.2.2.2.1.2]; omega

/-- The first layer's bias row is staged whole. -/
theorem blkB1_apply (c : Dev nD) (t : Fin cfg0.N) (z : Fin 1) (i : Fin 512) :
    (iblk m c 6 t : FVec Ideal S1x512 .f32) (ix2 z i) = lB1 m c (ix2 z i) := by
  unfold iblk
  rw [View.read_apply]
  show V m c main_v29 _ = V m c main_v29 _
  congr 1
  funext ax
  apply Fin.ext
  match ax with
  | ⟨0, _⟩ => show win0_6.index t 0 * 1 + 1 * z.val = z.val; rw [(idx_facts t).2.2.2.2.2.2.1.1]; omega
  | ⟨1, _⟩ => show win0_6.index t 1 * 512 + 1 * i.val = i.val; rw [(idx_facts t).2.2.2.2.2.2.1.2]; omega

/-- The second layer's bias row is staged whole. -/
theorem blkB2_apply (c : Dev nD) (t : Fin cfg0.N) (z : Fin 1) (d : Fin 256) :
    (iblk m c 7 t : FVec Ideal S1x256 .f32) (ix2 z d) = lB2 m c (ix2 z d) := by
  unfold iblk
  rw [View.read_apply]
  show V m c main_v30 _ = V m c main_v30 _
  congr 1
  funext ax
  apply Fin.ext
  match ax with
  | ⟨0, _⟩ => show win0_7.index t 0 * 1 + 1 * z.val = z.val; rw [(idx_facts t).2.2.2.2.2.2.2.1.1]; omega
  | ⟨1, _⟩ => show win0_7.index t 1 * 256 + 1 * d.val = d.val; rw [(idx_facts t).2.2.2.2.2.2.2.1.2]; omega

/-- The heads' bias row is staged whole. -/
theorem blkBp_apply (c : Dev nD) (t : Fin cfg0.N) (z : Fin 1) (j : Fin 3200) :
    (iblk m c 8 t : FVec Ideal S1x3200 .f32) (ix2 z j) = lBp m c (ix2 z j) := by
  unfold iblk
  rw [View.read_apply]
  show V m c main_v28 _ = V m c main_v28 _
  congr 1
  funext ax
  apply Fin.ext
  match ax with
  | ⟨0, _⟩ => show win0_8.index t 0 * 1 + 1 * z.val = z.val; rw [(idx_facts t).2.2.2.2.2.2.2.2.1.1]; omega
  | ⟨1, _⟩ => show win0_8.index t 1 * 3200 + 1 * j.val = j.val; rw [(idx_facts t).2.2.2.2.2.2.2.2.1.2]; omega

/-- The one-hot block at point `t` is rows `64·t … 64·t + 63` of the one-hot matrix. -/
theorem blkOh_apply (c : Dev nD) (t : Fin cfg0.N) (r : Fin 64) (p : Fin 25) :
    (iblk m c 9 t : FVec Ideal S64x25 .f32) (ix2 r p) = lOh m c (ix2 (sample t r) p) := by
  unfold iblk
  rw [View.read_apply]
  show V m c main_v7 _ = V m c main_v7 _
  congr 1
  funext ax
  apply Fin.ext
  match ax with
  | ⟨0, _⟩ => show win0_9.index t 0 * 64 + 1 * r.val = 64 * t.val + r.val; rw [(idx_facts t).2.2.2.2.2.2.2.2.2.1.1]; omega
  | ⟨1, _⟩ => show win0_9.index t 1 * 25 + 1 * p.val = p.val; rw [(idx_facts t).2.2.2.2.2.2.2.2.2.1.2]; omega

/-- The drug-weight block at point `t` is rows `64·t … 64·t + 63` of the gathered drug weights. -/
theorem blkWg_apply (c : Dev nD) (t : Fin cfg0.N) (r : Fin 64) (k : Fin 128) :
    (iblk m c 10 t : FVec Ideal S64x128 .f32) (ix2 r k) = lWg m c (ix2 (sample t r) k) := by
  unfold iblk
  rw [View.read_apply]
  show V m c main_v14 _ = V m c main_v14 _
  congr 1
  funext ax
  apply Fin.ext
  match ax with
  | ⟨0, _⟩ => show win0_10.index t 0 * 64 + 1 * r.val = 64 * t.val + r.val; rw [(idx_facts t).2.2.2.2.2.2.2.2.2.2.1.1]; omega
  | ⟨1, _⟩ => show win0_10.index t 1 * 128 + 1 * k.val = k.val; rw [(idx_facts t).2.2.2.2.2.2.2.2.2.2.1.2]; omega

/-- The drug-bias block at point `t` is rows `64·t … 64·t + 63` of the drug-bias column. -/
theorem blkBd_apply (c : Dev nD) (t : Fin cfg0.N) (r : Fin 64) (u : Fin 1) :
    (iblk m c 11 t : FVec Ideal S64x1 .f32) (ix2 r u) = lBd m c (ix2 (sample t r) u) := by
  unfold iblk
  rw [View.read_apply]
  show V m c main_v22 _ = V m c main_v22 _
  congr 1
  funext ax
  apply Fin.ext
  match ax with
  | ⟨0, _⟩ => show win0_11.index t 0 * 64 + 1 * r.val = 64 * t.val + r.val; rw [(idx_facts t).2.2.2.2.2.2.2.2.2.2.2.1.1]; omega
  | ⟨1, _⟩ => show win0_11.index t 1 * 1 + 1 * u.val = u.val; rw [(idx_facts t).2.2.2.2.2.2.2.2.2.2.2.1.2]; omega

/-! ### What a point writes back, the cover, the column -/

/-- The region's output column as one function of the launched arrays: row `b` is sample `b`'s output in the kernel's
    arrangement. -/
def kcol (c : Dev nD) : Buf (Elt Ideal) ((c.tc : Thread nD τ).loc main_v50) :=
  (fun i : S8192x1.Idx => Cert.Spec.kout (lX m c) (lW1 m c) (lB1 m c) (lW2 m c) (lB2 m c) (lWpT m c) (lBp m c) (lOh m c) (lS m c) (lR m c)
    (lWg m c) (lBd m c) i : S8192x1.Idx → EReal)

/-- Row `r` of the output block at point `t` is row `64·t + r` of the column. -/
theorem out_emb (t : Fin cfg0.N) (r : Fin 64) (u : Fin 1) :
    ((cfg0.win 12).blk t).view.emb (ix2 r u) = ix2 (sample t r) (0 : Fin 1) := by
  funext ax
  apply Fin.ext
  match ax with
  | ⟨0, _⟩ => show win0_12.index t 0 * 64 + 1 * r.val = 64 * t.val + r.val; rw [(idx_facts t).2.2.2.2.2.2.2.2.2.2.2.2.1]; omega
  | ⟨1, _⟩ => show win0_12.index t 1 * 1 + 1 * u.val = 0; rw [(idx_facts t).2.2.2.2.2.2.2.2.2.2.2.2.2]; have := u.isLt; omega

/-- WHAT POINT `t` WRITES BACK is block `t` of the column: the body's value at each row, its blocks read off the
    launched arrays. -/
theorem flushed_eq (c : Dev nD) (t : Fin cfg0.N) :
    (dats m 0 c).flushed 12 t = ((cfg0.win 12).blk t).view.read (Elt Ideal) (kcol m c) := by
  show (cfg0.win 12).cut (grid0.coords t) ((dats m 0 c).after 12 t) = _
  rw [after0_12]
  unfold out0_12
  rw [View.canon_unit_zero hz]
  simp only [View.ld_unit_zero (S := S64x19200) hz, View.ld_unit_zero (S := S19200x512) hz, View.ld_unit_zero (S := S512x256) hz,
    View.ld_unit_zero (S := S256x3200) hz, View.ld_unit_zero (S := S25x3200) hz, View.ld_unit_zero (S := S3200x128) hz,
    View.ld_unit_zero (S := S1x512) hz, View.ld_unit_zero (S := S1x256) hz, View.ld_unit_zero (S := S1x3200) hz,
    View.ld_unit_zero (S := S64x25) hz, View.ld_unit_zero (S := S64x128) hz, View.ld_unit_zero (S := S64x1) hz]
  funext y
  obtain ⟨r, u, rfl⟩ : ∃ (r : Fin 64) (u : Fin 1), y = ix2 r u := ⟨y 0, y 1, eq_ix2 y⟩
  obtain rfl : u = 0 := Fin.fin_one_eq_zero u
  show k0_pay1 (k0_pay2 (iblk m c 0 t) (iblk m c 1 t) (iblk m c 6 t) (iblk m c 2 t) (iblk m c 7 t) (iblk m c 3 t) (iblk m c 8 t))
      (k0_pay3 (iblk m c 9 t)) (iblk m c 4 t) (iblk m c 5 t) (iblk m c 10 t) (iblk m c 11 t) (ix2 r 0)
    = kcol m c (((cfg0.win 12).blk t).view.emb (ix2 r 0))
  rw [out_emb t r 0]
  refine (payload_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) r 0).trans ?_
  simp only [blkX_apply, blkW1_apply, blkW2_apply, blkWpT_apply, blkS_apply, blkR_apply, blkB1_apply, blkB2_apply, blkBp_apply,
    blkOh_apply, blkWg_apply, blkBd_apply]
  rfl

/-- An index of the column is in point `t`'s block iff each coordinate is in the block's range on its axis. -/
theorem mem_blk (t : Fin cfg0.N) (i : S8192x1.Idx) :
    i ∈ ((cfg0.win 12).blk t).view.set ↔ ∀ a : Fin 2, win0_12.index t a * S64x1.size a ≤ (i a).val ∧ (i a).val < win0_12.index t a * S64x1.size a + S64x1.size a := by
  show i ∈ ((View.whole main_v50).slice (win0_12.rect t)).set ↔ _
  rw [View.set_slice_whole, Rect.mem_set_unit]
  exact Iff.rfl

/-- The 128 blocks tile the column: row `b` lies in the block of point `b / 64`. -/
theorem cover (i : S8192x1.Idx) : ∃ t : Fin cfg0.N, (cfg0.win 12).flush t = true ∧ i ∈ ((cfg0.win 12).blk t).view.set := by
  have hi0 : (i 0).val < 8192 := (i 0).isLt
  have hi1 : (i 1).val < 1 := (i 1).isLt
  have hq : (i 0).val / 64 < cfg0.N := lt_of_lt_of_eq (by omega : (i 0).val / 64 < 128) N_0.symm
  refine ⟨⟨(i 0).val / 64, hq⟩, flush0_12 _, ?_⟩
  rw [mem_blk]
  have e0 : win0_12.index ⟨(i 0).val / 64, hq⟩ (0 : Fin 2) = (i 0).val / 64 := ((idx_facts ⟨(i 0).val / 64, hq⟩).2.2.2.2.2.2.2.2.2.2.2.2).1
  have e1 : win0_12.index ⟨(i 0).val / 64, hq⟩ (1 : Fin 2) = 0 := ((idx_facts ⟨(i 0).val / 64, hq⟩).2.2.2.2.2.2.2.2.2.2.2.2).2
  intro a
  match a with
  | ⟨0, _⟩ =>
    show win0_12.index ⟨(i 0).val / 64, hq⟩ (0 : Fin 2) * 64 ≤ (i 0).val ∧ (i 0).val < win0_12.index ⟨(i 0).val / 64, hq⟩ (0 : Fin 2) * 64 + 64
    rw [e0]; omega
  | ⟨1, _⟩ =>
    show win0_12.index ⟨(i 0).val / 64, hq⟩ (1 : Fin 2) * 1 ≤ (i 1).val ∧ (i 1).val < win0_12.index ⟨(i 0).val / 64, hq⟩ (1 : Fin 2) * 1 + 1
    rw [e1]; omega

/-- THE COLUMN after the region: every row holds its sample's output. -/
theorem final (c : Dev nD) : (dats m 0 c).arrAt 12 cfg0.N = kcol m c :=
  (dats m 0 c).arrAt_eq_of_cover 12 (kcol m c) (fun t _ => flushed_eq m c t) cover

/-! ## The host tail -/

/-- The one host operation after the region drops the column's unit axis: the result vector's entry `b` is row `b`
    of the column. -/
theorem tail_eq (c : Dev nD) : Pipeline.afterTail₀ cfgs (dats m) 0 (V0 m) [hostOps1] c main_v51
    = (fun i : S8192.Idx => Cert.Spec.kout (lX m c) (lW1 m c) (lB1 m c) (lW2 m c) (lB2 m c) (lWpT m c) (lBp m c) (lOh m c) (lS m c) (lR m c)
        (lWg m c) (lBd m c) (ix2 (i 0) 0) : S8192.Idx → EReal) := by
  unfold Pipeline.afterTail₀
  show StableHlo.after hostOps1 _ (Proc.devRef .tc main_v51) = _
  after_results
  funext i
  show shapeCast S8192 (Pipeline.withArrays spec0 c (V0 m c) (fun w => (dats m 0 c).arrAt w cfg0.N) (Proc.devRef .tc main_v50))
      shapeCasts_S8192x1_S8192 i = _
  refine (shapeCast_apply _ shapeCasts_S8192x1_S8192 i (ix2 (i 0) 0) ?_).trans ?_
  · rw [Shape.rowMajor_val_one, Shape.rowMajor_val_two]
    show (i 0).val * 1 + 0 = (i 0).val
    omega
  · exact congrFun ((Pipeline.withArrays_arr spec0 launch0.win.arr_inj c _ _ 12).trans (final m c)) (ix2 (i 0) 0)

/-- The result vector: entry `b` is the kernel-arrangement output of sample `b` over the launched arrays. -/
def kres (c : Dev nD) : Buf (Elt Ideal) ((c.tc : Thread nD τ).loc main_v51) :=
  (fun i : S8192.Idx => Cert.Spec.kout (lX m c) (lW1 m c) (lB1 m c) (lW2 m c) (lB2 m c) (lWpT m c) (lBp m c) (lOh m c) (lS m c) (lR m c)
    (lWg m c) (lBd m c) (ix2 (i 0) 0) : S8192.Idx → EReal)

/-- Every weakly fair execution of the idealized kernel program terminates with its result at `kres` and its
    arguments unchanged. -/
theorem run_kout : θ_run defs (onTc (τ := τ) (main (F := Ideal))) ⟨m, fun _ => 0, ρ⟩ (fun r => ∀ c : Dev nD,
      r.2.mem ((c.tc : Thread nD τ).loc main_v51) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v51 (Pipeline.mem_restRefs_of main_v51 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩) (run_main m ρ)

end Cert.KernelIdeal.KValue

end
-- ==== Proof.KernelBridge.lean ====
/-
  The kernel's result is the specification's `out`: each launched array is a re-layout of an argument array (column
  j of the flattened heads is head j / 128, feature j % 128), the one-hot row of sample b has its 1 at the sample's
  pathway, the expanding and collapsing matrices are the two 0/1 patterns, and the selection law of the
  specification picks column (pathway)·128 + feature. The pathway looked up by drug index lies below 25 because
  every entry of the pathway table does and a look-up returns an entry of the table.
-/
import proofs.«414887_j69758858821908_1_alg».proof.Proof.KernelHost
import proofs.«414887_j69758858821908_1_alg».proof.Proof.Spec
import Idealize.ShloMosaic.Lib.ValueIdx
import Idealize.ShloMosaic.Lib.StableHlo.Predicate

noncomputable section

namespace Cert.KernelIdeal.KBridge

open Cert.KernelIdeal Cert.KernelIdeal.Gen Cert.KernelIdeal.KHost Idealize.ShloMosaic Idealize.ShloMosaic.TcCoe Idealize.SL.Sem
open Idealize.ShloMosaic.ValueIdx
open Cert.Spec

variable (m : (ℓ : Loc nD τ sig) → Buf (Elt Ideal) ℓ)

/-! ## The looked-up pathway is an entry of the table -/

/-- A look-up in a table all of whose entries are below 25 is below 25. -/
theorem selTab_lt (pw : IVec S1448 32) (di : IVec S8192 32) (hpw : ∀ j : S1448.Idx, (pw j).toNat < 25) (i : S8192.Idx) :
    (selTab pw di i).toNat < 25 := by
  have hi : i = Shape.Idx.ofFin (i 0) := by
    funext a; match a with | ⟨0, _⟩ => rfl
  have h := StableHlo.Predicate.gather_take gather_S1448_S8192x1_S8192_n_0_n_n_0_1_1 rfl rfl rfl rfl pw (startIdx di) (i 0) (by norm_num)
  have e : selTab pw di i = _ := (congrArg (selTab pw di) hi).trans h
  rw [e]
  exact hpw _

/-! ## Columns of the flattened heads -/

theorem col_div (p : Fin 25) (k : Fin 128) (h : (col p k).val / 128 < 25) : (⟨(col p k).val / 128, h⟩ : Fin 25) = p :=
  Fin.ext (by show (p.val * 128 + k.val) / 128 = p.val; have := k.isLt; omega)

theorem col_mod (p : Fin 25) (k : Fin 128) (h : (col p k).val % 128 < 128) : (⟨(col p k).val % 128, h⟩ : Fin 128) = k :=
  Fin.ext (by show (p.val * 128 + k.val) % 128 = k.val; have := k.isLt; omega)

/-! ## The dense layers over the launched arrays are those over the arguments -/

theorem khid1_eq (c : Dev nD) (b : Fin 8192) (i : Fin 512) :
    khid1 (lX m c) (lW1 m c) (lB1 m c) b i = hid1 (argX m c) (argW1 m c) (argB1 m c) b i := by
  unfold khid1 hid1
  rw [lX_eq, lB1_apply]
  rw [Finset.sum_congr rfl (fun a _ => by rw [lW1_apply] :
    ∀ a ∈ (Finset.univ : Finset (Fin 19200)), argX m c (ix2 b a) * lW1 m c (ix2 a i) = argX m c (ix2 b a) * argW1 m c (ix2 a i))]

theorem khid2_eq (c : Dev nD) (b : Fin 8192) (d : Fin 256) :
    khid2 (lX m c) (lW1 m c) (lB1 m c) (lW2 m c) (lB2 m c) b d = hid2 (argX m c) (argW1 m c) (argB1 m c) (argW2 m c) (argB2 m c) b d := by
  unfold khid2 hid2
  rw [lB2_apply]
  rw [Finset.sum_congr rfl (fun i _ => by rw [khid1_eq, lW2_apply] :
    ∀ i ∈ (Finset.univ : Finset (Fin 512)), khid1 (lX m c) (lW1 m c) (lB1 m c) b i * lW2 m c (ix2 i d)
      = hid1 (argX m c) (argW1 m c) (argB1 m c) b i * argW2 m c (ix2 i d))]

/-- Column `p·128 + k` of the flattened heads is feature `k` of head `p`. -/
theorem kpath_col (c : Dev nD) (b : Fin 8192) (p : Fin 25) (k : Fin 128) :
    kpath (lX m c) (lW1 m c) (lB1 m c) (lW2 m c) (lB2 m c) (lWpT m c) (lBp m c) b (col p k)
      = path (argX m c) (argW1 m c) (argB1 m c) (argW2 m c) (argB2 m c) (argWp m c) (argBp m c) b p k := by
  unfold kpath path
  rw [lBp_apply]
  have hs : ∀ d ∈ (Finset.univ : Finset (Fin 256)),
      khid2 (lX m c) (lW1 m c) (lB1 m c) (lW2 m c) (lB2 m c) b d * lWpT m c (ix2 d (col p k))
        = hid2 (argX m c) (argW1 m c) (argB1 m c) (argW2 m c) (argB2 m c) b d * argWp m c (ix3 p k d) := by
    intro d _
    rw [khid2_eq, lWpT_apply]
    simp only [col_div, col_mod]
  rw [Finset.sum_congr rfl hs]
  simp only [col_div, col_mod]

/-! ## The one-hot row -/

/-- Sample `b`'s one-hot row has its 1 at the sample's pathway. -/
theorem oh_row (c : Dev nD) (hsel : ∀ i : S8192.Idx, (selTab (argPw m c) (argDi m c) i).toNat < 25) (b : Fin 8192) (p : Fin 25) :
    lOh m c (ix2 b p) = if p = selOf (selTab (argPw m c) (argDi m c)) b then 1 else 0 := by
  rw [lOh_apply, lSel_eq]
  have hw := hsel (ix1 b)
  have hp := p.isLt
  by_cases h : p = selOf (selTab (argPw m c) (argDi m c)) b
  · rw [if_pos h, if_pos]
    rw [h]
    show selTab (argPw m c) (argDi m c) (ix1 b) = BitVec.ofNat 32 ((selTab (argPw m c) (argDi m c) (ix1 b)).toNat % 25)
    rw [Nat.mod_eq_of_lt hw, BitVec.ofNat_toNat, BitVec.setWidth_eq]
  · rw [if_neg h, if_neg]
    intro e
    apply h
    apply Fin.ext
    show p.val = (selTab (argPw m c) (argDi m c) (ix1 b)).toNat % 25
    rw [e, BitVec.toNat_ofNat, Nat.mod_eq_of_lt (by omega : p.val < 2 ^ 32), Nat.mod_eq_of_lt hp]

/-! ## The result -/

/-- The kernel-arrangement output over the launched arrays, as a vector over the samples, is `out` of the argument
    arrays, with the pathway, the drug rows and the drug biases looked up by drug index. -/
theorem kfun_eq_out (c : Dev nD) (hsel : ∀ i : S8192.Idx, (selTab (argPw m c) (argDi m c) i).toNat < 25) :
    (fun i : (⟨1, ![8192]⟩ : Shape).Idx => kout (lX m c) (lW1 m c) (lB1 m c) (lW2 m c) (lB2 m c) (lWpT m c) (lBp m c) (lOh m c) (lS m c) (lR m c)
        (lWg m c) (lBd m c) (ix2 (i 0) 0))
      = out (argX m c) (argW1 m c) (argB1 m c) (argW2 m c) (argB2 m c) (argWp m c) (argBp m c)
          (selOf (selTab (argPw m c) (argDi m c))) (wgTab (argWd m c) (argDi m c)) (bdTab (argBd m c) (argDi m c)) := by
  funext i
  obtain ⟨b, rfl⟩ : ∃ b, i = ix1 b := ⟨i 0, eq_ix1 i⟩
  show kout (lX m c) (lW1 m c) (lB1 m c) (lW2 m c) (lB2 m c) (lWpT m c) (lBp m c) (lOh m c) (lS m c) (lR m c) (lWg m c) (lBd m c) (ix2 b 0) = _
  unfold kout out
  have e0 : (ix2 b (0 : Fin 1) : (⟨2, ![8192, 1]⟩ : Shape).Idx) 0 = b := rfl
  have e1 : (ix1 b : (⟨1, ![8192]⟩ : Shape).Idx) 0 = b := rfl
  simp only [e0, e1]
  rw [lBd_apply, lWg_eq]
  refine congrArg (· + bdTab (argBd m c) (argDi m c) (ix1 b)) (Finset.sum_congr rfl (fun k _ => ?_))
  refine congrArg (· * wgTab (argWd m c) (argDi m c) (ix2 b k)) ?_
  rw [← kpath_col m c b (selOf (selTab (argPw m c) (argDi m c)) b) k]
  exact select_collapse (fun j => kpath (lX m c) (lW1 m c) (lB1 m c) (lW2 m c) (lB2 m c) (lWpT m c) (lBp m c) b j)
    (selOf (selTab (argPw m c) (argDi m c)) b) k
    (fun p => lOh m c (ix2 b p)) (fun p => oh_row m c hsel b p)
    (fun p j => lS m c (ix2 p j)) (fun p j => lS_apply m c p j)
    (fun j k' => lR m c (ix2 j k')) (fun j k' => lR_apply m c j k')

end Cert.KernelIdeal.KBridge

end
-- ==== Proof.lean ====
/-
  The certificate's proof. The kernel computes, for each of 8192 samples, two dense layers with a bias and a clamp at
  zero, 25 pathway heads of 128 features (clamped at zero), keeps the head of the sample's own pathway and dots it
  with the sample's drug row, plus the drug's bias; the reference computes the same and selects the head by a
  look-up along the pathway axis, where the kernel selects it by two products with 0/1 matrices over the heads
  flattened to 3200 columns. Over the extended reals both are ONE function of the arguments (`Cert.Spec.out`):
  a change of float format is the identity, a matrix product is the plain sum over the contraction index, and a sum
  all of whose terms but one are a product with 0 is that one term — which holds for every extended real, so the
  finiteness of the float inputs is never used. What IS used of the precondition is that every entry of the pathway
  table lies in [0, 25): outside it the reference's look-up wraps a negative index or returns its out-of-range
  fill, while the kernel's one-hot row is all zero.

  The three frames: the two kernel programs' by their launch-side runs, the reference's by its run with the result
  dropped. The idealization rewrote nothing, so it has nothing to preserve. The algebraic claim: the kernel's run
  ends at `kres` (the kernel-arrangement output over the launched arrays), which is `out` of the arguments; the
  reference's run ends at its last stage, which is `out` of the same arguments; the pathway, drug-row and drug-bias
  look-ups are the same three terms on both sides.
-/
import proofs.«414887_j69758858821908_1_alg».proof.Defs
import proofs.«414887_j69758858821908_1_alg».proof.Proof.Gen.Kernel
import proofs.«414887_j69758858821908_1_alg».proof.Proof.Gen.Kernel.Frame
import proofs.«414887_j69758858821908_1_alg».proof.Proof.Gen.KernelIdeal
import proofs.«414887_j69758858821908_1_alg».proof.Proof.Gen.KernelIdeal.Frame
import proofs.«414887_j69758858821908_1_alg».proof.Proof.Gen.ReferenceIdeal
import proofs.«414887_j69758858821908_1_alg».proof.Proof.Gen.Pre_finite_inputs
import proofs.«414887_j69758858821908_1_alg».proof.Proof.RefRunPatched
import proofs.«414887_j69758858821908_1_alg».proof.Proof.RefReadPatched
import proofs.«414887_j69758858821908_1_alg».proof.Proof.Spec
import proofs.«414887_j69758858821908_1_alg».proof.Proof.Pre
import proofs.«414887_j69758858821908_1_alg».proof.Proof.RefValue
import proofs.«414887_j69758858821908_1_alg».proof.Proof.KernelHost
import proofs.«414887_j69758858821908_1_alg».proof.Proof.KernelValue
import proofs.«414887_j69758858821908_1_alg».proof.Proof.KernelBridge
import Idealize.ShloMosaic.Adequacy
import Idealize.ShloMosaic.Init

noncomputable section

namespace Cert.Proof

open Idealize.ShloMosaic Idealize.ShloMosaic.TcCoe Idealize.SL.Sem

/-! ## The three look-ups are the same terms in both programs -/

theorem sel_same (x9 : IVec Cert.KernelIdeal.S8192 32) (x10 : IVec Cert.KernelIdeal.S1448 32) :
    Cert.ReferenceIdeal.Read.val_main_v21 (F := Ideal) x9 x10 = Cert.KernelIdeal.KHost.selTab x10 x9 := rfl

theorem wg_same (x7 : Cert.Spec.T2 1448 128) (x9 : IVec Cert.KernelIdeal.S8192 32) :
    Cert.ReferenceIdeal.Read.val_main_v31 (F := Ideal) x7 x9 = Cert.KernelIdeal.KHost.wgTab x7 x9 := rfl

theorem bd_same (x8 : Cert.Spec.T1 1448) (x9 : IVec Cert.KernelIdeal.S8192 32) :
    Cert.ReferenceIdeal.Read.val_main_v40 (F := Ideal) x8 x9 = Cert.KernelIdeal.KHost.bdTab x8 x9 := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition the pathway looked up for every sample lies below 25. -/
theorem sel_lt (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S8192.Idx) :
    (Cert.KernelIdeal.KHost.selTab (Cert.KernelIdeal.KHost.argPw m c) (Cert.KernelIdeal.KHost.argDi m c) i).toNat < 25 :=
  Cert.KernelIdeal.KBridge.selTab_lt _ _
    (fun j => Cert.Pre_finite_inputs.Decode.drug_pw_lt (F := Ideal) _ _ _ _ _ _ _ _ _ _ _ (hpre c) j) i

theorem algebraic : Cert.algebraic_KernelIdeal_ReferenceIdeal := by
  intro m ρ m' ρ' hpre hagree
  refine ⟨fun c => Cert.KernelIdeal.KValue.kres m c, Cert.KernelIdeal.KValue.run_kout m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v41_eq, e0, e1, e2, e3, e4, e5, e6, e7, e8, e9, e10]
  have hk := sel_lt m hpre c
  refine (Cert.ReferenceIdeal.RefValue.ref_is_out _ _ _ _ _ _ _ _ _ _ _ (fun i => ?_)).trans ?_
  · rw [sel_same]; exact hk i
  · rw [sel_same, wg_same, bd_same]
    exact (Cert.KernelIdeal.KBridge.kfun_eq_out m c hk).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
